-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_v29 : IVec S_ 1) (main_v33 : IVec S800000 1) (main_c_11 : IVec S_ 1) : IVec S_ 1 :=
  let main_v34 : IVec S_ 1 := (fun x v => Host.reduce IntOp.andi x v reducesTo_S800000_S_d0 h_S_) main_v33 main_c_11
  let main_v35 : IVec S_ 1 := andi main_v29 main_v34
  main_v35

def fn_part1 {F : FTy → Type} [FloatOps F] (main_arg4 : FVec F S16 .f32) (main_arg5 : IVec S2x800000 32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : IVec S1x800000 32 := (extractStridedSlice S1x800000 ![1, 0] · slices_S2x800000_S1x800000_1_0) main_arg5
  let main_v25 : IVec S800000 32 := shapeCast S800000 main_v24 shapeCasts_S1x800000_S800000
  let main_c_8 : IVec S_ 32 := constantI S_ 32 0#32
  let main_v26 : IVec S800000 32 := broadcastInDim S800000 ![] bcast_S_S800000 main_c_8
  let main_v27 : IVec S800000 1 := cmpi .sge main_v25 main_v26
  let main_c_9 : IVec S_ 1 := constantI S_ 1 1#1
  let main_v28 : IVec S_ 1 := (fun x v => Host.reduce IntOp.andi x v reducesTo_S800000_S_d0 h_S_) main_v27 main_c_9
  let main_v29 : IVec S_ 1 := andi main_v23 main_v28
  let main_v30 : IVec S1x800000 32 := (extractStridedSlice S1x800000 ![1, 0] · slices_S2x800000_S1x800000_1_0) main_arg5
  let main_v31 : IVec S800000 32 := shapeCast S800000 main_v30 shapeCasts_S1x800000_S800000
  let main_c_10 : IVec S_ 32 := constantI S_ 32 50000#32
  let main_v32 : IVec S800000 32 := broadcastInDim S800000 ![] bcast_S_S800000 main_c_10
  let main_v33 : IVec S800000 1 := cmpi .slt main_v31 main_v32
  let main_c_11 : IVec S_ 1 := constantI S_ 1 1#1
  fn_part2 (F := F) main_v29 main_v33 main_c_11

def fn {F : FTy → Type} [FloatOps F] (main_arg0 : FVec F S50000x64 .f32) (main_arg1 : FVec F S64x64 .f32) (main_arg2 : FVec F S64 .f32) (main_arg3 : FVec F S64x16 .f32) (main_arg4 : FVec F S16 .f32) (main_arg5 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_v13 main_v16
-- ==== Kernel.lean ====
abbrev S50000x64 : Shape := ⟨2, ![50000, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S_ : Shape := ⟨0, ![]⟩
abbrev S50176x64 : Shape := ⟨2, ![50176, 64]⟩
abbrev S50176 : Shape := ⟨1, ![50176]⟩
abbrev S50176x1 : Shape := ⟨2, ![50176, 1]⟩
abbrev S1x64 : Shape := ⟨2, ![1, 64]⟩
abbrev S3584x1 : Shape := ⟨2, ![3584, 1]⟩
abbrev S3584x64 : Shape := ⟨2, ![3584, 64]⟩
abbrev S1x1792 : Shape := ⟨2, ![1, 1792]⟩
abbrev S3584x1792 : Shape := ⟨2, ![3584, 1792]⟩
abbrev S1792x64 : Shape := ⟨2, ![1792, 64]⟩
abbrev S50176x16 : Shape := ⟨2, ![50176, 16]⟩
abbrev S800000x1 : Shape := ⟨2, ![800000, 1]⟩
abbrev S1x16 : Shape := ⟨2, ![1, 16]⟩
abbrev S800000x16 : Shape := ⟨2, ![800000, 16]⟩
abbrev S6400x1 : Shape := ⟨2, ![6400, 1]⟩
abbrev S6400x16 : Shape := ⟨2, ![6400, 16]⟩
abbrev S6400x1792 : Shape := ⟨2, ![6400, 1792]⟩
abbrev S1792x16 : Shape := ⟨2, ![1792, 16]⟩

abbrev nBuf : Space → Nat
  | .hbm => 22
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S_, .i32⟩
  | .hbm, ⟨10, _⟩ => ⟨S_, .f32⟩
  | .hbm, ⟨11, _⟩ => ⟨S50176x64, .f32⟩
  | .hbm, ⟨12, _⟩ => ⟨S_, .i32⟩
  | .hbm, ⟨13, _⟩ => ⟨S_, .i32⟩
  | .hbm, ⟨14, _⟩ => ⟨S50176, .i32⟩
  | .hbm, ⟨15, _⟩ => ⟨S50176x1, .i32⟩
  | .hbm, ⟨16, _⟩ => ⟨S1x64, .f32⟩
  | .hbm, ⟨17, _⟩ => ⟨S50176x64, .f32⟩
  | .hbm, ⟨18, _⟩ => ⟨S50176x16, .f32⟩
  | .hbm, ⟨19, _⟩ => ⟨S800000x1, .i32⟩
  | .hbm, ⟨20, _⟩ => ⟨S1x16, .f32⟩
  | .hbm, ⟨21, _⟩ => ⟨S800000x16, .f32⟩
  | .local _ .vmem, ⟨0, _⟩ => ⟨S3584x1, .i32⟩
  | .local _ .vmem, ⟨1, _⟩ => ⟨S3584x1, .i32⟩
  | .local _ .vmem, ⟨2, _⟩ => ⟨S50176x64, .f32⟩
  | .local _ .vmem, ⟨3, _⟩ => ⟨S64x64, .f32⟩
  | .local _ .vmem, ⟨4, _⟩ => ⟨S1x64, .f32⟩
  | .local _ .vmem, ⟨5, _⟩ => ⟨S3584x64, .f32⟩
  | .local _ .vmem, ⟨6, _⟩ => ⟨S3584x64, .f32⟩
  | .local _ .vmem, ⟨7, _⟩ => ⟨S6400x1, .i32⟩
  | .local _ .vmem, ⟨8, _⟩ => ⟨S6400x1, .i32⟩
  | .local _ .vmem, ⟨9, _⟩ => ⟨S50176x16, .f32⟩
  | .local _ .vmem, ⟨10, _⟩ => ⟨S1x16, .f32⟩
  | .local _ .vmem, ⟨11, _⟩ => ⟨S6400x16, .f32⟩
  | .local _ .vmem, ⟨12, _⟩ => ⟨S6400x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32 : BitVec 32 := 0#32
  let c28_i32 : BitVec 32 := 28#32
  let v3 : BitVec 32 := Scalar.addi c0_i32 c28_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1792_i32 : BitVec 32 := 1792#32
  let v16 : BitVec 32 := Scalar.muli arg6 c1792_i32
  v16
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1792_i32 : BitVec 32 := 1792#32
  let v16 : BitVec 32 := Scalar.muli arg6 c1792_i32
  let v17 : BitVec 32 := v16
  let v27 : Index := Scalar.indexCast v17
  let c0_10 : Index := 0#32
  ![v27.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3584x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50176x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3584x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

@[reducible] def k1_t1_loop : Scf.Loop 32 :=
  let c0_i32 : BitVec 32 := 0#32
  let c28_i32 : BitVec 32 := 28#32
  let v3 : BitVec 32 := Scalar.addi c0_i32 c28_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c1792_i32 : BitVec 32 := 1792#32
  let v10 : BitVec 32 := Scalar.muli arg5 c1792_i32
  v10
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c1792_i32 : BitVec 32 := 1792#32
  let v10 : BitVec 32 := Scalar.muli arg5 c1792_i32
  let v11 : BitVec 32 := v10
  let v21 : Index := Scalar.indexCast v11
  let c0_6 : Index := 0#32
  ![v21.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50176x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_1_0 : S2x800000.Slices ![1, 0] S1x800000
  shapeCasts_S1x800000_S800000 : S1x800000.ShapeCasts S800000
  slices_S800000_S50000_0 : S800000.Slices ![0] S50000
  pads_S50000x64_S50176x64_01760_000 : S50000x64.Pads (![0, 0] : Fin 2 → Nat) ![176, 0] ![0, 0] S50176x64
  h_S_ : 0 < S_.numel
  pads_S50000_S50176_01760 : S50000.Pads (![0] : Fin 1 → Nat) ![176] ![0] S50176
  shapeCasts_S50176_S50176x1 : S50176.ShapeCasts S50176x1
  shapeCasts_S64_S1x64 : S64.ShapeCasts S1x64
  inb_S3584x1_S3584x1_0_0 : ∀ a, (![0, 0] : Fin 2 → Nat) a + S3584x1.size a ≤ S3584x1.size a
  h_S3584x1 : 0 < S3584x1.numel
  shapeCasts_S3584x1_S3584x1 : S3584x1.ShapeCasts S3584x1
  iota_S1x1792_d1_w32 : S1x1792.Iotas .tc 32 [1]
  broadcasts_S3584x1_S3584x1792 : S3584x1.Broadcasts S3584x1792
  broadcasts_S1x1792_S3584x1792 : S1x1792.Broadcasts S3584x1792
  natLt_1_32 : 1 < 32
  bitsLt_bf16_f32 : FTy.bits .bf16 < FTy.bits .f32
  h_S1792x64 : 0 < S1792x64.numel
  shapeCasts_S1792x64_S1792x64 : S1792x64.ShapeCasts S1792x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3584x64 : S1x64.Broadcasts S3584x64
  inb_S3584x64_S3584x64_0_0 : ∀ a, (![0, 0] : Fin 2 → Nat) a + S3584x64.size a ≤ S3584x64.size a
  h_S3584x64 : 0 < S3584x64.numel
  shapeCasts_S800000_S800000x1 : S800000.ShapeCasts S800000x1
  shapeCasts_S16_S1x16 : S16.ShapeCasts S1x16
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x1792 : S6400x1.Broadcasts S6400x1792
  broadcasts_S1x1792_S6400x1792 : S1x1792.Broadcasts S6400x1792
  h_S1792x16 : 0 < S1792x16.numel
  shapeCasts_S1792x16_S1792x16 : S1792x16.ShapeCasts S1792x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S6400x16 : S1x16.Broadcasts S6400x16
  inb_S6400x16_S6400x16_0_0 : ∀ a, (![0, 0] : Fin 2 → Nat) a + S6400x16.size a ≤ S6400x16.size a
  h_S6400x16 : 0 < S6400x16.numel
  dot_S3584x1792_S1792x64_S3584x64_1_0_0_1_n_n_wf : DotDims.WF S3584x1792 S1792x64 S3584x64 [1] [0] [0] [1] [] []
  dot_S3584x64_S64x64_S3584x64_1_0_0_1_n_n_wf : DotDims.WF S3584x64 S64x64 S3584x64 [1] [0] [0] [1] [] []
  dot_S50176x64_S64x16_S50176x16_1_0_0_1_n_n_wf : DotDims.WF S50176x64 S64x16 S50176x16 [1] [0] [0] [1] [] []
  dot_S6400x1792_S1792x16_S6400x16_1_0_0_1_n_n_wf : DotDims.WF S6400x1792 S1792x16 S6400x16 [1] [0] [0] [1] [] []
  hrank0 : 0 < grid0.rank
  k0_t1_ok : k0_t1_loop.OK
  k0_mult1_dvd : ∀ k0_t1 : Fin k0_t1_loop.trips, 1792 ∣ (k0_mult1 k0_t1).toNat
  k0_off1_inb : ∀ k0_t1 : Fin k0_t1_loop.trips, ∀ a, (k0_off1 k0_t1) a + S1792x64.size a ≤ S50176x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3584x1.size a ≤ S50176x1.size a
  hwx0_0 : ∀ i : grid0.Coords, EltTy.bits .i32 = 32 ∨ (Rect.block (s := S50176x1) S3584x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50176x64.size a ≤ S50176x64.size a
  hwx0_1 : ∀ i : grid0.Coords, EltTy.bits .f32 = 32 ∨ (Rect.block (s := S50176x64) S50176x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3584x64.size a ≤ S50176x64.size a
  hwx0_4 : ∀ i : grid0.Coords, EltTy.bits .f32 = 32 ∨ (Rect.block (s := S50176x64) S3584x64.size (cc0_transform_4 i) (hinb0_4 i)).WholeWords (EltTy.packing .f32)
  hrank1 : 0 < grid1.rank
  k1_t1_ok : k1_t1_loop.OK
  k1_mult1_dvd : ∀ k1_t1 : Fin k1_t1_loop.trips, 1792 ∣ (k1_mult1 k1_t1).toNat
  k1_off1_inb : ∀ k1_t1 : Fin k1_t1_loop.trips, ∀ a, (k1_off1 k1_t1) a + S1792x16.size a ≤ S50176x16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x1.size a ≤ S800000x1.size a
  hwx1_0 : ∀ i : grid1.Coords, EltTy.bits .i32 = 32 ∨ (Rect.block (s := S800000x1) S6400x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50176x16.size a ≤ S50176x16.size a
  hwx1_1 : ∀ i : grid1.Coords, EltTy.bits .f32 = 32 ∨ (Rect.block (s := S50176x16) S50176x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6400x16.size a ≤ S800000x16.size a
  hwx1_3 : ∀ i : grid1.Coords, EltTy.bits .f32 = 32 ∨ (Rect.block (s := S800000x16) S6400x16.size (cc1_transform_3 i) (hinb1_3 i)).WholeWords (EltTy.packing .f32)

variable [Facts₀]

def dot_S3584x1792_S1792x64_S3584x64_1_0_0_1_n_n : DotDims S3584x1792 S1792x64 S3584x64 where
  lhsContracting := [1]
  rhsContracting := [0]
  lhsNonContracting := [0]
  rhsNonContracting := [1]
  lhsBatch := []
  rhsBatch := []
  wf := dot_S3584x1792_S1792x64_S3584x64_1_0_0_1_n_n_wf
def dot_S3584x64_S64x64_S3584x64_1_0_0_1_n_n : DotDims S3584x64 S64x64 S3584x64 where
  lhsContracting := [1]
  rhsContracting := [0]
  lhsNonContracting := [0]
  rhsNonContracting := [1]
  lhsBatch := []
  rhsBatch := []
  wf := dot_S3584x64_S64x64_S3584x64_1_0_0_1_n_n_wf
def dot_S50176x64_S64x16_S50176x16_1_0_0_1_n_n : DotDims S50176x64 S64x16 S50176x16 where
  lhsContracting := [1]
  rhsContracting := [0]
  lhsNonContracting := [0]
  rhsNonContracting := [1]
  lhsBatch := []
  rhsBatch := []
  wf := dot_S50176x64_S64x16_S50176x16_1_0_0_1_n_n_wf
def dot_S6400x1792_S1792x16_S6400x16_1_0_0_1_n_n : DotDims S6400x1792 S1792x16 S6400x16 where
  lhsContracting := [1]
  rhsContracting := [0]
  lhsNonContracting := [0]
  rhsNonContracting := [1]
  lhsBatch := []
  rhsBatch := []
  wf := dot_S6400x1792_S1792x16_S6400x16_1_0_0_1_n_n_wf

abbrev win0_0 : Pipeline.Window sig grid0 :=
  Pipeline.Window.ofSpec (Memref.whole main_v5) S3584x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S50176x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S3584x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S6400x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S50176x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S6400x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S800000x16 : Shape := ⟨2, ![800000, 16]⟩
abbrev S1x16 : Shape := ⟨2, ![1, 16]⟩

abbrev nBuf : Space → Nat
  | .hbm => 37
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S1x64, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S800000x64, .f32⟩
  | .hbm, ⟨23, _⟩ => ⟨S800000x64, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x64, .f32⟩
  | .hbm, ⟨33, _⟩ => ⟨S800000x16, .f32⟩
  | .hbm, ⟨34, _⟩ => ⟨S1x16, .f32⟩
  | .hbm, ⟨35, _⟩ => ⟨S800000x16, .f32⟩
  | .hbm, ⟨36, _⟩ => ⟨S800000x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S16_S1x16_1 : S16.BroadcastsInDim S1x16 (![1] : Fin 1 → Fin S1x16.rank)
  bcast_S1x16_S800000x16_0_1 : S1x16.BroadcastsInDim S800000x16 (![0, 1] : Fin 2 → Fin S800000x16.rank)
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  gather_S800000x64_S800000x1_S800000x64_1_0_n_n_0_1_164_wf : GatherDims.WF S800000x64 S800000x1 S800000x64 [1] [0] [] [0] [] 1 ![1, 64]
  dot_S800000x64_S64x16_S800000x16_1_0_0_1_n_n_wf : DotDims.WF S800000x64 S64x16 S800000x16 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S800000x64_S800000x1_S800000x64_1_0_n_n_0_1_164 : GatherDims S800000x64 S800000x1 S800000x64 where
  offsetDims := [1]
  collapsedSliceDims := [0]
  operandBatchingDims := []
  startIndicesBatchingDims := []
  startIndexMap := [0]
  indexVectorDim := 1
  sliceSizes := ![1, 64]
  wf := gather_S800000x64_S800000x1_S800000x64_1_0_n_n_0_1_164_wf
def dot_S800000x64_S64x16_S800000x16_1_0_0_1_n_n : DotDims S800000x64 S64x16 S800000x16 where
  lhsContracting := [1]
  rhsContracting := [0]
  lhsNonContracting := [0]
  rhsNonContracting := [1]
  lhsBatch := []
  rhsBatch := []
  wf := dot_S800000x64_S64x16_S800000x16_1_0_0_1_n_n_wf

class Facts : Prop extends Facts₀ where

variable [Facts]
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibOneHotSelect.lean ====
/-
  Selecting one entry of a table by one-hot sums over chunks.

  A table of n · TK entries is scanned chunk by chunk. For a position w, chunk k contributes the sum over its TK slots r
  of  [w = k · TK + r] · tbl (k · TK + r): every term is zero but the one at w, if w lies in the chunk. Adding the chunks'
  contributions to an accumulator started at zero leaves tbl w when w is a position of the table and zero otherwise.
  On the extended reals the argument needs no finiteness: 0 · t = 0 and t + 0 = t for every t.
-/
import Idealize.ShloMosaic.PureOps.Ideal

noncomputable section

open scoped BigOperators

namespace Cert.Select

/-- One chunk's contribution: the entry at w when w lies in the chunk [base, base + TK), else zero. -/
theorem chunk_sum (TK w base : ℕ) (tbl : ℕ → EReal) :
    ∑ r : Fin TK, (if w = base + r.val then (1 : EReal) else 0) * tbl (base + r.val)
      = if base ≤ w ∧ w < base + TK then tbl w else 0 := by
  by_cases h : base ≤ w ∧ w < base + TK
  · rw [if_pos h]
    have hr : w - base < TK := by omega
    have hw : w = base + (w - base) := by omega
    rw [Finset.sum_eq_single (⟨w - base, hr⟩ : Fin TK)]
    · show (if w = base + (w - base) then (1 : EReal) else 0) * tbl (base + (w - base)) = tbl w
      rw [if_pos hw, one_mul, ← hw]
    · intro r _ hne
      have hnr : ¬ w = base + r.val := fun e => hne (Fin.ext (by show r.val = w - base; omega))
      rw [if_neg hnr, zero_mul]
    · intro h'; exact absurd (Finset.mem_univ _) h'
  · rw [if_neg h]
    refine Finset.sum_eq_zero fun r _ => ?_
    have hnr : ¬ w = base + r.val := fun e => h ⟨by omega, by have := r.isLt; omega⟩
    rw [if_neg hnr, zero_mul]

/-- The accumulator after all n chunks: the entry at w when w is a position of the table, else zero. -/
theorem accum_select (TK n w : ℕ) (tbl : ℕ → EReal) (acc : ℕ → EReal) (h0 : acc 0 = 0)
    (hs : ∀ k, k < n → acc (k + 1)
      = acc k + ∑ r : Fin TK, (if w = k * TK + r.val then (1 : EReal) else 0) * tbl (k * TK + r.val)) :
    acc n = if w < n * TK then tbl w else 0 := by
  have key : ∀ k, k ≤ n → acc k = if w < k * TK then tbl w else 0 := by
    intro k
    induction k with
    | zero => intro _; rw [h0, if_neg (by omega)]
    | succ k ih =>
      intro hk
      have hmul : (k + 1) * TK = k * TK + TK := by rw [Nat.add_mul, Nat.one_mul]
      rw [hs k (by omega), ih (by omega), chunk_sum, hmul]
      generalize k * TK = B
      by_cases h1 : w < B
      · rw [if_pos h1, if_neg (by omega), if_pos (by omega), add_zero]
      · by_cases h2 : w < B + TK
        · rw [if_neg h1, if_pos ⟨by omega, h2⟩, if_pos h2, zero_add]
        · rw [if_neg h1, if_neg (by omega), if_neg h2, add_zero]
  exact key n le_rfl

end Cert.Select

end
-- ==== Proof.Gather0.lean ====
/-
  The first pallas_call's body, read at an entry.

  The body holds a block of 3584 target words and the whole padded feature table (50176 rows of 64). It scans the table
  in 28 chunks of 1792 rows: chunk k adds, to an accumulator started at zero, the product of a 0/1 matrix — entry (j, r)
  is 1 exactly when word j equals k · 1792 + r — with the chunk. Row j of the sum is therefore the table's row named by
  word j when that is a row of the table, and zero otherwise. The gathered rows are then multiplied by W1, b1 is added and
  the result is held at zero from below.
-/
import proofs.«418506_j22119081574524_1_alg».proof.Proof.Gen.KernelIdeal.Frame
import proofs.«418506_j22119081574524_1_alg».proof.Proof.LibDotPlain
import proofs.«418506_j22119081574524_1_alg».proof.Proof.LibColumn
import proofs.«418506_j22119081574524_1_alg».proof.Proof.LibOneHotSelect
import Idealize.ShloMosaic.Lib.ValueLayout
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Gather0

open Cert.KernelIdeal Cert.KernelIdeal.Gen Idealize.ShloMosaic Idealize.ShloMosaic.ValueIdx Idealize.SL.Sem

/-- The word of chunk k's first row is k · 1792. -/
theorem chunk_word : ∀ k : Fin k0_t1_loop.trips,
    Scalar.muli (Scf.iv 0#32 1#32 k) 1792#32 = BitVec.ofNat 32 (1792 * k.val) := by decide +kernel

/-- A word equals the word of a number below 2³² exactly when its value is that number. -/
theorem word_eq_iff (w : BitVec 32) (N : ℕ) (hN : N < 2 ^ 32) : w = BitVec.ofNat 32 N ↔ w.toNat = N := by
  constructor
  · rintro rfl; rw [BitVec.toNat_ofNat, Nat.mod_eq_of_lt hN]
  · intro h; apply BitVec.eq_of_toNat_eq; rw [h, BitVec.toNat_ofNat, Nat.mod_eq_of_lt hN]

/-- The 0/1 matrix's entry on the extended reals: the equality test widened to a word and read as a number. -/
theorem onehot_entry (a b : BitVec 32) :
    FloatOps.sitofp (F := Ideal) .f32 ((IntOp.cmpi .eq a b).setWidth 32) = if a = b then (1 : EReal) else 0 := by
  by_cases h : a = b
  · subst h
    rw [if_pos rfl]
    have e1 : IntOp.cmpi .eq a a = 1#1 := by simp [IntOp.cmpi]
    rw [e1]
    show (((BitVec.setWidth 32 (1#1)).toInt : ℝ) : EReal) = 1
    have e2 : (BitVec.setWidth 32 (1#1)).toInt = 1 := by decide
    rw [e2]; simp
  · rw [if_neg h]
    have e1 : IntOp.cmpi .eq a b = 0#1 := by
      show BitVec.ofBool (a == b) = 0#1
      rw [show (a == b) = false from beq_eq_false_iff_ne.mpr h]; rfl
    rw [e1]
    show (((BitVec.setWidth 32 (0#1)).toInt : ℝ) : EReal) = 0
    have e2 : (BitVec.setWidth 32 (0#1)).toInt = 0 := by decide
    rw [e2]; simp

/-- One trip's yield at entry (j, d): the carried value there plus the chunk's one-hot sum. -/
theorem pay2_apply (v0 : Vec Ideal S3584x1 .i32) (k : Fin k0_t1_loop.trips) (acc : FVec Ideal S3584x64 .f32)
    (v28 : Vec Ideal S1792x64 .f32) (j : Fin 3584) (d : Fin 64) :
    k0_pay2 (F := Ideal) v0 k acc v28 (ix2 j d)
      = acc (ix2 j d) + ∑ r : Fin 1792,
          (if (v0 (ix2 j (0 : Fin 1))).toNat = k.val * 1792 + r.val then (1 : EReal) else 0) * v28 (ix2 r d) := by
  have hk : k.val < 28 := Nat.lt_of_lt_of_le k.isLt k0_t1_abs.2.1
  unfold k0_pay2
  dsimp only
  show acc (ix2 j d) + _ = _
  congr 1
  refine (Cert.LibDotPlain.matmul_zero_apply (m := 3584) (n := 64) (k := 1792) _ none _ _ j d).trans ?_
  refine Finset.sum_congr rfl fun r _ => ?_
  congr 1
  · show FloatOps.sitofp (F := Ideal) .f32 ((IntOp.cmpi .eq
        (broadcastTo S3584x1792 (shapeCast S3584x1 v0 shapeCasts_S3584x1_S3584x1) broadcasts_S3584x1_S3584x1792 (ix2 j r))
        (broadcastTo S3584x1792 (addi (broadcast S1x1792 (Scalar.muli (Scf.iv 0#32 1#32 k) 1792#32))
          (iota .tc S1x1792 32 [1] iota_S1x1792_d1_w32)) broadcasts_S1x1792_S3584x1792 (ix2 j r))).setWidth 32) = _
    rw [Cert.LibColumn.broadcastTo_a1_ab_apply, broadcastTo_1b_ab_apply, shapeCast_self, onehot_entry]
    refine if_congr ?_ rfl rfl
    show v0 (ix2 j (0 : Fin 1)) = Scalar.muli (Scf.iv 0#32 1#32 k) 1792#32
        + iota .tc S1x1792 32 [1] iota_S1x1792_d1_w32 (ix2 (0 : Fin 1) r) ↔ _
    rw [chunk_word k, iota_single_apply .tc S1x1792 32 (1 : Fin 2) iota_S1x1792_d1_w32 (ix2 (0 : Fin 1) r)]
    show v0 (ix2 j (0 : Fin 1)) = BitVec.ofNat 32 (1792 * k.val) + BitVec.ofNat 32 r.val ↔ _
    rw [← BitVec.ofNat_add, word_eq_iff _ _ (by have := r.isLt; omega), Nat.mul_comm]
  · show shapeCast S1792x64 v28 shapeCasts_S1792x64_S1792x64 (ix2 r d) = _
    rw [shapeCast_self]

variable {F : FTy → Type} [FloatOps F]

/-- One trip's yield is the payload of the carried value and the chunk the trip loads. -/
theorem trip_eq (𝒱 : Variants) (c : Dev nD) (bd : Option 𝒱.V) (i : grid0.Coords) (arg1 : Memref sig .tc .vmem S3584x1 .i32) (harg1 : arg1.IsWhole) (arg2 : Memref sig .tc .vmem S50176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3584x64 .f32) (harg5 : arg5.IsWhole) (v0 : Vec F S3584x1 .i32) (X : BufTy.Contents (Elt F) arg2.view.ty) (k : Fin k0_t1_loop.trips) (acc : FVec F S3584x64 .f32) :
    tripR_k0_t1 (F := F) 𝒱 c bd i arg1 harg1 arg2 harg2 arg3 harg3 arg4 harg4 arg5 harg5 v0 X k acc
      = k0_pay2 v0 k acc (View.readAt (Elt F) arg2.view (Rect.unit (s := S50176x64) (k0_off1 k) S1792x64.size (k0_off1_inb k)).toLoadRect X) := by
  unfold tripR_k0_t1 trip_k0_t1
  rfl

/-- The chunk trip k loads, at (r, d), is the table's entry at row k · 1792 + r. -/
theorem chunk_read (arg2 : Memref sig .tc .vmem S50176x64 .f32) (harg2 : arg2.IsWhole) (x1 : Vec F S50176x64 .f32)
    (k : Fin k0_t1_loop.trips) (r : Fin 1792) (d : Fin 64) (hlt : k.val * 1792 + r.val < 50176) :
    View.readAt (Elt F) arg2.view (Rect.unit (s := S50176x64) (k0_off1 k) S1792x64.size (k0_off1_inb k)).toLoadRect
        (harg2.unread x1) (ix2 r d)
      = x1 (ix2 (⟨k.val * 1792 + r.val, hlt⟩ : Fin 50176) d) := by
  rw [View.readAt_eq_ld, harg2.read_unread]
  show x1 _ = x1 _
  refine congrArg x1 (Shape.idx_ext₂ ?_ ?_)
  · show (k0_off1 k) 0 + 1 * r.val = k.val * 1792 + r.val
    rw [k0_off1_eq k]; show 1792 * k.val + 1 * r.val = _; omega
  · show (k0_off1 k) 1 + 1 * d.val = d.val
    rw [k0_off1_eq k]; show 0 + 1 * d.val = d.val; omega

/-- The loop runs 28 trips. -/
theorem trips_eq : k0_t1_loop.trips = 28 := by decide +kernel

/-- Column d of the table as a function of a row NUMBER, zero past the table's 50176 rows. -/
def colN (x1 : Vec Ideal S50176x64 .f32) (d : Fin 64) (n : ℕ) : EReal :=
  if h : n < 50176 then x1 (ix2 (⟨n, h⟩ : Fin 50176) d) else 0

/-- The row the body gathers for word w, at column d: the table's row w, or zero when w names no row. -/
def pick (x1 : Vec Ideal S50176x64 .f32) (w : BitVec 32) (d : Fin 64) : EReal :=
  if w.toNat < 28 * 1792 then colN x1 d w.toNat else 0

/-- The accumulator starts at zero. -/
theorem pay1_apply (i : S3584x64.Idx) : k0_pay1 (F := Ideal) i = 0 := by
  unfold k0_pay1
  show Ideal.ofBits .f32 0x00000000#32 = 0
  exact Ideal.ofBits_zero_f32

/-- After the 28 trips the accumulator's row j is the row word j names. -/
theorem loop_final (𝒱 : Variants) (c : Dev nD) (bd : Option 𝒱.V) (i : grid0.Coords) (arg1 : Memref sig .tc .vmem S3584x1 .i32) (harg1 : arg1.IsWhole) (arg2 : Memref sig .tc .vmem S50176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3584x64 .f32) (harg5 : arg5.IsWhole)
    (v0 : Vec Ideal S3584x1 .i32) (x1 : Vec Ideal S50176x64 .f32) (n : ℕ) (hn : n = 28) (j : Fin 3584) (d : Fin 64) :
    st_k0_t1 (F := Ideal) 𝒱 c bd i arg1 harg1 arg2 harg2 arg3 harg3 arg4 harg4 arg5 harg5 v0 (harg2.unread x1) k0_pay1 n (ix2 j d)
      = pick x1 (v0 (ix2 j (0 : Fin 1))) d := by
  subst hn
  refine Cert.Select.accum_select 1792 28 (v0 (ix2 j (0 : Fin 1))).toNat (colN x1 d)
    (fun k => st_k0_t1 (F := Ideal) 𝒱 c bd i arg1 harg1 arg2 harg2 arg3 harg3 arg4 harg4 arg5 harg5 v0 (harg2.unread x1) k0_pay1 k (ix2 j d))
    (pay1_apply _) (fun k hk => ?_)
  have hkt : k < k0_t1_loop.trips := by rw [trips_eq]; exact hk
  have hs := st_k0_t1_succ (F := Ideal) 𝒱 c bd i arg1 harg1 arg2 harg2 arg3 harg3 arg4 harg4 arg5 harg5 v0 (harg2.unread x1) k0_pay1 ⟨k, hkt⟩
  show st_k0_t1 (F := Ideal) 𝒱 c bd i arg1 harg1 arg2 harg2 arg3 harg3 arg4 harg4 arg5 harg5 v0 (harg2.unread x1) k0_pay1 (k + 1) (ix2 j d) = _
  rw [hs, trip_eq, pay2_apply]
  congr 1
  refine Finset.sum_congr rfl fun r _ => ?_
  have hlt : k * 1792 + r.val < 50176 := by have := r.isLt; omega
  rw [chunk_read arg2 harg2 x1 ⟨k, hkt⟩ r d hlt]
  show _ * x1 (ix2 (⟨k * 1792 + r.val, hlt⟩ : Fin 50176) d) = _ * colN x1 d (k * 1792 + r.val)
  unfold colN
  rw [dif_pos hlt]

/-- The closing payload at entry (j, d): the gathered row times W1's column d, plus b1, held at zero from below. -/
theorem pay3_apply (v4 : FVec Ideal S3584x64 .f32) (v6 : Vec Ideal S64x64 .f32) (v9 : Vec Ideal S1x64 .f32)
    (j : Fin 3584) (d : Fin 64) :
    k0_pay3 (F := Ideal) v4 v6 v9 (ix2 j d)
      = max (∑ k : Fin 64, v4 (ix2 j k) * v6 (ix2 k d) + v9 (ix2 (0 : Fin 1) d)) 0 := by
  unfold k0_pay3
  show max (_ + _) _ = _
  congr 1
  · congr 1
    · exact Cert.LibDotPlain.matmul_zero_apply (m := 3584) (n := 64) (k := 64) _ none _ _ j d
    · show broadcastTo S3584x64 (shapeCast S1x64 v9 shapeCasts_S1x64_S1x64) broadcasts_S1x64_S3584x64 (ix2 j d) = _
      rw [broadcastTo_1b_ab_apply, shapeCast_self]
  · show Ideal.ofBits .f32 0x00000000#32 = 0
    exact Ideal.ofBits_zero_f32

theorem hz : (![0, 0] : Fin 2 → Nat) = fun _ => 0 := funext fun a => by fin_cases a <;> rfl

/-- THE BODY'S OUTPUT at entry (j, d), on any staging buffers holding a block x0 of words, the table x1, W1 as x2 and the
    one-row b1 as x3. -/
theorem out0_apply (c : Dev nD) (i : grid0.Coords) (arg1 : Memref sig .tc .vmem S3584x1 .i32) (harg1 : arg1.IsWhole) (arg2 : Memref sig .tc .vmem S50176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S3584x64 .f32) (harg5 : arg5.IsWhole)
    (x0 : Vec Ideal S3584x1 .i32) (x1 : Vec Ideal S50176x64 .f32) (x2 : Vec Ideal S64x64 .f32) (x3 : Vec Ideal S1x64 .f32)
    (j : Fin 3584) (d : Fin 64) :
    out0_A_4 (F := Ideal) c i arg1 harg1 arg2 harg2 arg3 harg3 arg4 harg4 arg5 harg5 x0 x1 x2 x3 (ix2 j d)
      = max (∑ k : Fin 64, pick x1 (x0 (ix2 j (0 : Fin 1))) k * x2 (ix2 k d) + x3 (ix2 (0 : Fin 1) d)) 0 := by
  unfold out0_A_4
  rw [View.read_writes_eq_canon _ _ _ (cover0_A_4 c i arg1 harg1 arg2 harg2 arg3 harg3 arg4 harg4 arg5 harg5 x0 x1 x2 x3)]
  unfold kernelRun0_A
  dsimp only
  rw [View.canon_unit_zero hz]
  simp only [View.readAt_eq_ld, harg1.read_unread, harg3.read_unread, harg4.read_unread,
    View.ld_unit_zero (S := S3584x1) hz, View.ld_unit_zero (S := S64x64) hz, View.ld_unit_zero (S := S1x64) hz]
  rw [pay3_apply]
  congr 1
  congr 1
  refine Finset.sum_congr rfl fun k _ => ?_
  congr 1
  exact loop_final _ c _ i arg1 harg1 arg2 harg2 arg3 harg3 arg4 harg4 arg5 harg5 x0 x1 _ trips_eq j k

end Cert.KernelIdeal.Gather0

end
-- ==== Proof.Region0.lean ====
/-
  The first pallas_call's output array.

  Its grid has 14 points. Point t takes the t-th block of 3584 target words, the whole padded table, W1 and the one-row b1,
  and writes back rows [3584 t, 3584 (t + 1)) of the output. The 14 blocks tile the 50176 rows, so after the region row n
  of the output is  relu (gathered row n · W1 + b1)  with the gathered row the table's row named by word n (zero when the
  word names no row of the table).
-/
import proofs.«418506_j22119081574524_1_alg».proof.Proof.Gather0

set_option maxRecDepth 16384

noncomputable section

open scoped BigOperators

namespace Cert.KernelIdeal.Region0

open Cert.KernelIdeal Cert.KernelIdeal.Gen Cert.KernelIdeal.Gather0 Idealize.ShloMosaic Idealize.ShloMosaic.ValueIdx
open Idealize.ShloMosaic.TcCoe Idealize.SL.Sem

variable (V : (c : Dev nD) → (b : Ref sig .tc) → Buf (Elt Ideal) ((c : Thread nD τ).loc b))

/-- Row n of the output at column d: the row word n names, times W1's column d, plus b1, held at zero from below. -/
def Hrow (idx : S50176x1.Idx → BitVec 32) (tbl : Vec Ideal S50176x64 .f32) (W1 : S64x64.Idx → EReal)
    (b1 : S1x64.Idx → EReal) (n : Fin 50176) (d : Fin 64) : EReal :=
  max (∑ k : Fin 64, pick tbl (idx (ix2 n (0 : Fin 1))) k * W1 (ix2 k d) + b1 (ix2 (0 : Fin 1) d)) 0

/-- The output array as one function of the arrays the region finds. -/
def Harr (c : Dev nD) : S50176x64.Idx → EReal := fun i =>
  Hrow (V c main_v5) (V c main_v3) (V c main_arg1) (V c main_v6) ⟨(i 0).val, (i 0).isLt⟩ ⟨(i 1).val, (i 1).isLt⟩

/-- The index maps over the grid: the words' and the output's block index is the point's number, the others' is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 14 := lt_of_lt_of_eq t.isLt N_0

/-- Point t's block of words at j is the word array's entry t · 3584 + j. -/
theorem words_blk (c : Dev nD) (t : Fin cfg0.N) (j : Fin 3584) :
    (iblk0 V c 0 t : S3584x1.Idx → BitVec 32) (ix2 j (0 : Fin 1))
      = (V c main_v5 : S50176x1.Idx → BitVec 32)
          (ix2 (⟨t.val * 3584 + j.val, by have := point_lt t; have := j.isLt; omega⟩ : Fin 50176) (0 : Fin 1)) := by
  obtain ⟨e0, e1, -⟩ := idx_facts t
  show (V c main_v5 : S50176x1.Idx → BitVec 32) (((cfg0.win 0).blk t).view.emb (ix2 j (0 : Fin 1))) = _
  refine congrArg (V c main_v5 : S50176x1.Idx → BitVec 32) (Shape.idx_ext₂ ?_ ?_)
  · show win0_0.index t (0 : Fin 2) * 3584 + 1 * j.val = t.val * 3584 + j.val
    rw [e0]; omega
  · show win0_0.index t (1 : Fin 2) * 1 + 1 * 0 = 0
    rw [e1]

/-- Every point's block of the table is the whole table. -/
theorem table_blk (c : Dev nD) (t : Fin cfg0.N) :
    (iblk0 V c 1 t : S50176x64.Idx → EReal) = (V c main_v3 : S50176x64.Idx → EReal) := by
  obtain ⟨-, -, e2, e3, -⟩ := idx_facts t
  funext y
  show (V c main_v3 : S50176x64.Idx → EReal) (((cfg0.win 1).blk t).view.emb y) = _
  refine congrArg (V c main_v3 : S50176x64.Idx → EReal) (Shape.idx_ext₂ ?_ ?_)
  · show win0_1.index t (0 : Fin 2) * 50176 + 1 * (y 0).val = (y 0).val
    rw [e2]; omega
  · show win0_1.index t (1 : Fin 2) * 64 + 1 * (y 1).val = (y 1).val
    rw [e3]; omega

/-- Every point's block of W1 is W1. -/
theorem w1_blk (c : Dev nD) (t : Fin cfg0.N) :
    (iblk0 V c 2 t : S64x64.Idx → EReal) = (V c main_arg1 : S64x64.Idx → EReal) := by
  obtain ⟨-, -, -, -, e4, e5, -⟩ := idx_facts t
  funext y
  show (V c main_arg1 : S64x64.Idx → EReal) (((cfg0.win 2).blk t).view.emb y) = _
  refine congrArg (V c main_arg1 : S64x64.Idx → EReal) (Shape.idx_ext₂ ?_ ?_)
  · show win0_2.index t (0 : Fin 2) * 64 + 1 * (y 0).val = (y 0).val
    rw [e4]; omega
  · show win0_2.index t (1 : Fin 2) * 64 + 1 * (y 1).val = (y 1).val
    rw [e5]; omega

/-- Every point's block of the one-row b1 is that row. -/
theorem b1_blk (c : Dev nD) (t : Fin cfg0.N) :
    (iblk0 V c 3 t : S1x64.Idx → EReal) = (V c main_v6 : S1x64.Idx → EReal) := by
  obtain ⟨-, -, -, -, -, -, e6, e7, -⟩ := idx_facts t
  funext y
  show (V c main_v6 : S1x64.Idx → EReal) (((cfg0.win 3).blk t).view.emb y) = _
  refine congrArg (V c main_v6 : S1x64.Idx → EReal) (Shape.idx_ext₂ ?_ ?_)
  · show win0_3.index t (0 : Fin 2) * 1 + 1 * (y 0).val = (y 0).val
    rw [e6]; omega
  · show win0_3.index t (1 : Fin 2) * 64 + 1 * (y 1).val = (y 1).val
    rw [e7]; omega

/-- What point t leaves in its output block, at (j, d): row t · 3584 + j of the output function. -/
theorem point_out (c : Dev nD) (t : Fin cfg0.N) (j : Fin 3584) (d : Fin 64) :
    outsAt0 V c t (ix2 j d)
      = Hrow (V c main_v5) (V c main_v3) (V c main_arg1) (V c main_v6)
          (⟨t.val * 3584 + j.val, by have := point_lt t; have := j.isLt; omega⟩ : Fin 50176) d := by
  unfold outsAt0
  refine (out0_apply c (grid0.coords t) (ms0_0 t) (hs0_0 t) (ms0_1 t) (hs0_1 t) (ms0_2 t) (hs0_2 t) (ms0_3 t) (hs0_3 t)
    (ms0_4 t) (hs0_4 t) (iblk0 V c 0 t) (iblk0 V c 1 t) (iblk0 V c 2 t) (iblk0 V c 3 t) j d).trans ?_
  unfold Hrow
  rw [words_blk V c t j, table_blk V c t, w1_blk V c t, b1_blk V c t]

/-- What point t leaves in its output block, as one function of the block's index. -/
theorem point_fun (c : Dev nD) (t : Fin cfg0.N) :
    outsAt0 V c t = fun y : S3584x64.Idx =>
      Hrow (V c main_v5) (V c main_v3) (V c main_arg1) (V c main_v6)
        (⟨t.val * 3584 + (y 0).val, by have := point_lt t; have : (y 0).val < 3584 := (y 0).isLt; omega⟩ : Fin 50176)
        (⟨(y 1).val, (y 1).isLt⟩ : Fin 64) := by
  funext y
  obtain ⟨j, d, rfl⟩ : ∃ (j : Fin 3584) (d : Fin 64), y = ix2 j d := ⟨y 0, y 1, eq_ix2 y⟩
  exact point_out V c t j d

/-- A point whose output block holds rows [3584 t, 3584 (t + 1)) of a row function g writes back block t of g. -/
theorem flushed_of_point (g : Fin 50176 → Fin 64 → EReal) (c : Dev nD) (t : Fin cfg0.N)
    (hpt : outsAt0 V c t = fun y : S3584x64.Idx =>
      g (⟨t.val * 3584 + (y 0).val, by have := point_lt t; have : (y 0).val < 3584 := (y 0).isLt; omega⟩ : Fin 50176)
        (⟨(y 1).val, (y 1).isLt⟩ : Fin 64)) :
    (dat0 V c).flushed 4 t = ((cfg0.win 4).blk t).view.read (Elt Ideal)
      (fun i : S50176x64.Idx => g ⟨(i 0).val, (i 0).isLt⟩ ⟨(i 1).val, (i 1).isLt⟩) := by
  show (cfg0.win 4).cut (grid0.coords t) ((dat0 V c).after 4 t) = _
  rw [after0_4, hpt]
  obtain ⟨-, -, -, -, -, -, -, -, e8, e9⟩ := idx_facts t
  funext y
  rw [View.read_apply, cast_eq]
  refine congrArg₂ g (Fin.ext ?_) (Fin.ext ?_)
  · show t.val * 3584 + (y 0).val = win0_4.index t (0 : Fin 2) * 3584 + 1 * (y 0).val
    rw [e8]; omega
  · show (y 1).val = win0_4.index t (1 : Fin 2) * 64 + 1 * (y 1).val
    rw [e9]; omega

/-- WHAT POINT t WRITES BACK is block t of the output function. -/
theorem flushed_eq (c : Dev nD) (t : Fin cfg0.N) :
    (dat0 V c).flushed 4 t = ((cfg0.win 4).blk t).view.read (Elt Ideal) (Harr V c) :=
  flushed_of_point V (Hrow (V c main_v5) (V c main_v3) (V c main_arg1) (V c main_v6)) c t (point_fun V c t)

/-- An index of the output is in point t's block exactly when each coordinate is in the block's range. -/
theorem mem_blk (t : Fin cfg0.N) (i : S50176x64.Idx) :
    i ∈ ((cfg0.win 4).blk t).view.set ↔ ∀ a : Fin 2, win0_4.index t a * S3584x64.size a ≤ (i a).val
      ∧ (i a).val < win0_4.index t a * S3584x64.size a + S3584x64.size a := by
  show i ∈ ((View.whole main_v7).slice (win0_4.rect t)).set ↔ _
  rw [View.set_slice_whole, Rect.mem_set_unit]
  exact Iff.rfl

/-- The 14 blocks cover the output: row r lies in the block of point r / 3584. -/
theorem cover (i : S50176x64.Idx) :
    ∃ t : Fin cfg0.N, (cfg0.win 4).flush t = true ∧ i ∈ ((cfg0.win 4).blk t).view.set := by
  have hi0 : (i 0).val < 50176 := (i 0).isLt
  have hi1 : (i 1).val < 64 := (i 1).isLt
  let t : Fin cfg0.N := ⟨(i 0).val / 3584, by rw [show cfg0.N = 14 from N_0]; omega⟩
  obtain ⟨-, -, -, -, -, -, -, -, e8, e9⟩ := idx_facts t
  refine ⟨t, flush0_4 t, ?_⟩
  rw [mem_blk]
  intro a
  match a with
  | ⟨0, _⟩ =>
    show win0_4.index t (0 : Fin 2) * 3584 ≤ (i 0).val ∧ (i 0).val < win0_4.index t (0 : Fin 2) * 3584 + 3584
    rw [e8]; show (i 0).val / 3584 * 3584 ≤ (i 0).val ∧ (i 0).val < (i 0).val / 3584 * 3584 + 3584; omega
  | ⟨1, _⟩ =>
    show win0_4.index t (1 : Fin 2) * 64 ≤ (i 1).val ∧ (i 1).val < win0_4.index t (1 : Fin 2) * 64 + 64
    rw [e9]; omega

/-- THE OUTPUT ARRAY after the region, at entry (n, d). -/
theorem array_apply (c : Dev nD) (n : Fin 50176) (d : Fin 64) :
    ((dat0 V c).arrAt 4 cfg0.N : S50176x64.Idx → EReal) (ix2 n d)
      = Hrow (V c main_v5) (V c main_v3) (V c main_arg1) (V c main_v6) n d := by
  rw [(dat0 V c).arrAt_eq_of_cover 4 (Harr V c) (fun t _ => flushed_eq V c t) cover]
  rfl

end Cert.KernelIdeal.Region0

end
-- ==== Proof.Gather1.lean ====
/-
  The second pallas_call's body, read at an entry.

  The body holds a block of 6400 target words and the whole table of padded score rows (50176 rows of 16). As in the
  first call it scans the table in 28 chunks of 1792 rows with 0/1 matrices, so row j of the accumulator ends as the
  table's row named by word j (zero when the word names no row). The one-row b2 is then added.
-/
import proofs.«418506_j22119081574524_1_alg».proof.Proof.Gather0

set_option maxRecDepth 16384

noncomputable section

open scoped BigOperators

namespace Cert.KernelIdeal.Gather1

open Cert.KernelIdeal Cert.KernelIdeal.Gen Idealize.ShloMosaic Idealize.ShloMosaic.ValueIdx Idealize.SL.Sem
open Cert.KernelIdeal.Gather0 (word_eq_iff onehot_entry hz)

/-- The word of chunk k's first row is k · 1792. -/
theorem chunk_word : ∀ k : Fin k1_t1_loop.trips,
    Scalar.muli (Scf.iv 0#32 1#32 k) 1792#32 = BitVec.ofNat 32 (1792 * k.val) := by decide +kernel

/-- One trip's yield at entry (j, q): the carried value there plus the chunk's one-hot sum. -/
theorem pay2_apply (v0 : Vec Ideal S6400x1 .i32) (k : Fin k1_t1_loop.trips) (acc : FVec Ideal S6400x16 .f32)
    (v22 : Vec Ideal S1792x16 .f32) (j : Fin 6400) (q : Fin 16) :
    k1_pay2 (F := Ideal) v0 k acc v22 (ix2 j q)
      = acc (ix2 j q) + ∑ r : Fin 1792,
          (if (v0 (ix2 j (0 : Fin 1))).toNat = k.val * 1792 + r.val then (1 : EReal) else 0) * v22 (ix2 r q) := by
  have hk : k.val < 28 := Nat.lt_of_lt_of_le k.isLt k1_t1_abs.2.1
  unfold k1_pay2
  dsimp only
  show acc (ix2 j q) + _ = _
  congr 1
  refine (Cert.LibDotPlain.matmul_zero_apply (m := 6400) (n := 16) (k := 1792) _ none _ _ j q).trans ?_
  refine Finset.sum_congr rfl fun r _ => ?_
  congr 1
  · show FloatOps.sitofp (F := Ideal) .f32 ((IntOp.cmpi .eq
        (broadcastTo S6400x1792 (shapeCast S6400x1 v0 shapeCasts_S6400x1_S6400x1) broadcasts_S6400x1_S6400x1792 (ix2 j r))
        (broadcastTo S6400x1792 (addi (broadcast S1x1792 (Scalar.muli (Scf.iv 0#32 1#32 k) 1792#32))
          (iota .tc S1x1792 32 [1] iota_S1x1792_d1_w32)) broadcasts_S1x1792_S6400x1792 (ix2 j r))).setWidth 32) = _
    rw [Cert.LibColumn.broadcastTo_a1_ab_apply, broadcastTo_1b_ab_apply, shapeCast_self, onehot_entry]
    refine if_congr ?_ rfl rfl
    show v0 (ix2 j (0 : Fin 1)) = Scalar.muli (Scf.iv 0#32 1#32 k) 1792#32
        + iota .tc S1x1792 32 [1] iota_S1x1792_d1_w32 (ix2 (0 : Fin 1) r) ↔ _
    rw [chunk_word k, iota_single_apply .tc S1x1792 32 (1 : Fin 2) iota_S1x1792_d1_w32 (ix2 (0 : Fin 1) r)]
    show v0 (ix2 j (0 : Fin 1)) = BitVec.ofNat 32 (1792 * k.val) + BitVec.ofNat 32 r.val ↔ _
    rw [← BitVec.ofNat_add, word_eq_iff _ _ (by have := r.isLt; omega), Nat.mul_comm]
  · show shapeCast S1792x16 v22 shapeCasts_S1792x16_S1792x16 (ix2 r q) = _
    rw [shapeCast_self]

variable {F : FTy → Type} [FloatOps F]

/-- One trip's yield is the payload of the carried value and the chunk the trip loads. -/
theorem trip_eq (𝒱 : Variants) (c : Dev nD) (bd : Option 𝒱.V) (i : grid1.Coords) (arg1 : Memref sig .tc .vmem S6400x1 .i32) (harg1 : arg1.IsWhole) (arg2 : Memref sig .tc .vmem S50176x16 .f32) (harg2 : arg2.IsWhole) (arg3 : Memref sig .tc .vmem S1x16 .f32) (harg3 : arg3.IsWhole) (arg4 : Memref sig .tc .vmem S6400x16 .f32) (harg4 : arg4.IsWhole) (v0 : Vec F S6400x1 .i32) (X : BufTy.Contents (Elt F) arg2.view.ty) (k : Fin k1_t1_loop.trips) (acc : FVec F S6400x16 .f32) :
    tripR_k1_t1 (F := F) 𝒱 c bd i arg1 harg1 arg2 harg2 arg3 harg3 arg4 harg4 v0 X k acc
      = k1_pay2 v0 k acc (View.readAt (Elt F) arg2.view (Rect.unit (s := S50176x16) (k1_off1 k) S1792x16.size (k1_off1_inb k)).toLoadRect X) := by
  unfold tripR_k1_t1 trip_k1_t1
  rfl

/-- The chunk trip k loads, at (r, q), is the table's entry at row k · 1792 + r. -/
theorem chunk_read (arg2 : Memref sig .tc .vmem S50176x16 .f32) (harg2 : arg2.IsWhole) (x1 : Vec F S50176x16 .f32)
    (k : Fin k1_t1_loop.trips) (r : Fin 1792) (q : Fin 16) (hlt : k.val * 1792 + r.val < 50176) :
    View.readAt (Elt F) arg2.view (Rect.unit (s := S50176x16) (k1_off1 k) S1792x16.size (k1_off1_inb k)).toLoadRect
        (harg2.unread x1) (ix2 r q)
      = x1 (ix2 (⟨k.val * 1792 + r.val, hlt⟩ : Fin 50176) q) := by
  rw [View.readAt_eq_ld, harg2.read_unread]
  show x1 _ = x1 _
  refine congrArg x1 (Shape.idx_ext₂ ?_ ?_)
  · show (k1_off1 k) 0 + 1 * r.val = k.val * 1792 + r.val
    rw [k1_off1_eq k]; show 1792 * k.val + 1 * r.val = _; omega
  · show (k1_off1 k) 1 + 1 * q.val = q.val
    rw [k1_off1_eq k]; show 0 + 1 * q.val = q.val; omega

/-- The loop runs 28 trips. -/
theorem trips_eq : k1_t1_loop.trips = 28 := by decide +kernel

/-- Column q of the table as a function of a row NUMBER, zero past the table's 50176 rows. -/
def colN (x1 : Vec Ideal S50176x16 .f32) (q : Fin 16) (n : ℕ) : EReal :=
  if h : n < 50176 then x1 (ix2 (⟨n, h⟩ : Fin 50176) q) else 0

/-- The row the body gathers for word w, at column q: the table's row w, or zero when w names no row. -/
def pick (x1 : Vec Ideal S50176x16 .f32) (w : BitVec 32) (q : Fin 16) : EReal :=
  if w.toNat < 28 * 1792 then colN x1 q w.toNat else 0

/-- The accumulator starts at zero. -/
theorem pay1_apply (i : S6400x16.Idx) : k1_pay1 (F := Ideal) i = 0 := by
  unfold k1_pay1
  show Ideal.ofBits .f32 0x00000000#32 = 0
  exact Ideal.ofBits_zero_f32

/-- After the 28 trips the accumulator's row j is the row word j names. -/
theorem loop_final (𝒱 : Variants) (c : Dev nD) (bd : Option 𝒱.V) (i : grid1.Coords) (arg1 : Memref sig .tc .vmem S6400x1 .i32) (harg1 : arg1.IsWhole) (arg2 : Memref sig .tc .vmem S50176x16 .f32) (harg2 : arg2.IsWhole) (arg3 : Memref sig .tc .vmem S1x16 .f32) (harg3 : arg3.IsWhole) (arg4 : Memref sig .tc .vmem S6400x16 .f32) (harg4 : arg4.IsWhole)
    (v0 : Vec Ideal S6400x1 .i32) (x1 : Vec Ideal S50176x16 .f32) (n : ℕ) (hn : n = 28) (j : Fin 6400) (q : Fin 16) :
    st_k1_t1 (F := Ideal) 𝒱 c bd i arg1 harg1 arg2 harg2 arg3 harg3 arg4 harg4 v0 (harg2.unread x1) k1_pay1 n (ix2 j q)
      = pick x1 (v0 (ix2 j (0 : Fin 1))) q := by
  subst hn
  refine Cert.Select.accum_select 1792 28 (v0 (ix2 j (0 : Fin 1))).toNat (colN x1 q)
    (fun k => st_k1_t1 (F := Ideal) 𝒱 c bd i arg1 harg1 arg2 harg2 arg3 harg3 arg4 harg4 v0 (harg2.unread x1) k1_pay1 k (ix2 j q))
    (pay1_apply _) (fun k hk => ?_)
  have hkt : k < k1_t1_loop.trips := by rw [trips_eq]; exact hk
  have hs := st_k1_t1_succ (F := Ideal) 𝒱 c bd i arg1 harg1 arg2 harg2 arg3 harg3 arg4 harg4 v0 (harg2.unread x1) k1_pay1 ⟨k, hkt⟩
  show st_k1_t1 (F := Ideal) 𝒱 c bd i arg1 harg1 arg2 harg2 arg3 harg3 arg4 harg4 v0 (harg2.unread x1) k1_pay1 (k + 1) (ix2 j q) = _
  rw [hs, trip_eq, pay2_apply]
  congr 1
  refine Finset.sum_congr rfl fun r _ => ?_
  have hlt : k * 1792 + r.val < 50176 := by have := r.isLt; omega
  rw [chunk_read arg2 harg2 x1 ⟨k, hkt⟩ r q hlt]
  show _ * x1 (ix2 (⟨k * 1792 + r.val, hlt⟩ : Fin 50176) q) = _ * colN x1 q (k * 1792 + r.val)
  unfold colN
  rw [dif_pos hlt]

/-- The closing payload at entry (j, q): the gathered entry plus b2's. -/
theorem pay3_apply (v4 : FVec Ideal S6400x16 .f32) (v5 : Vec Ideal S1x16 .f32) (j : Fin 6400) (q : Fin 16) :
    k1_pay3 (F := Ideal) v4 v5 (ix2 j q) = v4 (ix2 j q) + v5 (ix2 (0 : Fin 1) q) := by
  unfold k1_pay3
  show _ + _ = _
  congr 1
  show broadcastTo S6400x16 (shapeCast S1x16 v5 shapeCasts_S1x16_S1x16) broadcasts_S1x16_S6400x16 (ix2 j q) = _
  rw [broadcastTo_1b_ab_apply, shapeCast_self]

/-- THE BODY'S OUTPUT at entry (j, q), on any staging buffers holding a block x0 of words, the table x1 and the one-row
    b2 as x2. -/
theorem out1_apply (c : Dev nD) (i : grid1.Coords) (arg1 : Memref sig .tc .vmem S6400x1 .i32) (harg1 : arg1.IsWhole) (arg2 : Memref sig .tc .vmem S50176x16 .f32) (harg2 : arg2.IsWhole) (arg3 : Memref sig .tc .vmem S1x16 .f32) (harg3 : arg3.IsWhole) (arg4 : Memref sig .tc .vmem S6400x16 .f32) (harg4 : arg4.IsWhole)
    (x0 : Vec Ideal S6400x1 .i32) (x1 : Vec Ideal S50176x16 .f32) (x2 : Vec Ideal S1x16 .f32) (j : Fin 6400) (q : Fin 16) :
    out1_A_3 (F := Ideal) c i arg1 harg1 arg2 harg2 arg3 harg3 arg4 harg4 x0 x1 x2 (ix2 j q)
      = pick x1 (x0 (ix2 j (0 : Fin 1))) q + x2 (ix2 (0 : Fin 1) q) := by
  unfold out1_A_3
  rw [View.read_writes_eq_canon _ _ _ (cover1_A_3 c i arg1 harg1 arg2 harg2 arg3 harg3 arg4 harg4 x0 x1 x2)]
  unfold kernelRun1_A
  dsimp only
  rw [View.canon_unit_zero hz]
  simp only [View.readAt_eq_ld, harg1.read_unread, harg3.read_unread,
    View.ld_unit_zero (S := S6400x1) hz, View.ld_unit_zero (S := S1x16) hz]
  rw [pay3_apply]
  congr 1
  exact loop_final _ c _ i arg1 harg1 arg2 harg2 arg3 harg3 arg4 harg4 x0 x1 _ trips_eq j q

end Cert.KernelIdeal.Gather1

end
-- ==== Proof.Region1.lean ====
/-
  The second pallas_call's output array.

  Its grid has 125 points. Point t takes the t-th block of 6400 target words, the whole table of padded score rows and the
  one-row b2, and writes back rows [6400 t, 6400 (t + 1)) of the output. The 125 blocks tile the 800000 rows, so after
  the region row e of the output is the score row named by word e (zero when the word names no row of the table) plus b2.
-/
import proofs.«418506_j22119081574524_1_alg».proof.Proof.Gather1

set_option maxRecDepth 16384

noncomputable section

open scoped BigOperators

namespace Cert.KernelIdeal.Region1

open Cert.KernelIdeal Cert.KernelIdeal.Gen Cert.KernelIdeal.Gather1 Idealize.ShloMosaic Idealize.ShloMosaic.ValueIdx
open Idealize.ShloMosaic.TcCoe Idealize.SL.Sem

variable (V : (c : Dev nD) → (b : Ref sig .tc) → Buf (Elt Ideal) ((c : Thread nD τ).loc b))

/-- Row e of the output at column q: the score row word e names, plus b2. -/
def Orow (idx : S800000x1.Idx → BitVec 32) (tbl : Vec Ideal S50176x16 .f32) (b2 : S1x16.Idx → EReal)
    (e : Fin 800000) (q : Fin 16) : EReal :=
  pick tbl (idx (ix2 e (0 : Fin 1))) q + b2 (ix2 (0 : Fin 1) q)

/-- The output array as one function of the arrays the region finds. -/
def Oarr (c : Dev nD) : S800000x16.Idx → EReal := fun i =>
  Orow (V c main_v9) (V c main_v8) (V c main_v10) ⟨(i 0).val, (i 0).isLt⟩ ⟨(i 1).val, (i 1).isLt⟩

/-- The index maps over the grid: the words' and the output's block index is the point's number, the others' is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 125 := lt_of_lt_of_eq t.isLt N_1

/-- Point t's block of words at j is the word array's entry t · 6400 + j. -/
theorem words_blk (c : Dev nD) (t : Fin cfg1.N) (j : Fin 6400) :
    (iblk1 V c 0 t : S6400x1.Idx → BitVec 32) (ix2 j (0 : Fin 1))
      = (V c main_v9 : S800000x1.Idx → BitVec 32)
          (ix2 (⟨t.val * 6400 + j.val, by have := point_lt t; have := j.isLt; omega⟩ : Fin 800000) (0 : Fin 1)) := by
  obtain ⟨e0, e1, -⟩ := idx_facts t
  show (V c main_v9 : S800000x1.Idx → BitVec 32) (((cfg1.win 0).blk t).view.emb (ix2 j (0 : Fin 1))) = _
  refine congrArg (V c main_v9 : S800000x1.Idx → BitVec 32) (Shape.idx_ext₂ ?_ ?_)
  · show win1_0.index t (0 : Fin 2) * 6400 + 1 * j.val = t.val * 6400 + j.val
    rw [e0]; omega
  · show win1_0.index t (1 : Fin 2) * 1 + 1 * 0 = 0
    rw [e1]

/-- Every point's block of the table is the whole table. -/
theorem table_blk (c : Dev nD) (t : Fin cfg1.N) :
    (iblk1 V c 1 t : S50176x16.Idx → EReal) = (V c main_v8 : S50176x16.Idx → EReal) := by
  obtain ⟨-, -, e2, e3, -⟩ := idx_facts t
  funext y
  show (V c main_v8 : S50176x16.Idx → EReal) (((cfg1.win 1).blk t).view.emb y) = _
  refine congrArg (V c main_v8 : S50176x16.Idx → EReal) (Shape.idx_ext₂ ?_ ?_)
  · show win1_1.index t (0 : Fin 2) * 50176 + 1 * (y 0).val = (y 0).val
    rw [e2]; omega
  · show win1_1.index t (1 : Fin 2) * 16 + 1 * (y 1).val = (y 1).val
    rw [e3]; omega

/-- Every point's block of the one-row b2 is that row. -/
theorem b2_blk (c : Dev nD) (t : Fin cfg1.N) :
    (iblk1 V c 2 t : S1x16.Idx → EReal) = (V c main_v10 : S1x16.Idx → EReal) := by
  obtain ⟨-, -, -, -, e4, e5, -⟩ := idx_facts t
  funext y
  show (V c main_v10 : S1x16.Idx → EReal) (((cfg1.win 2).blk t).view.emb y) = _
  refine congrArg (V c main_v10 : S1x16.Idx → EReal) (Shape.idx_ext₂ ?_ ?_)
  · show win1_2.index t (0 : Fin 2) * 1 + 1 * (y 0).val = (y 0).val
    rw [e4]; omega
  · show win1_2.index t (1 : Fin 2) * 16 + 1 * (y 1).val = (y 1).val
    rw [e5]; omega

/-- What point t leaves in its output block, at (j, q): row t · 6400 + j of the output function. -/
theorem point_out (c : Dev nD) (t : Fin cfg1.N) (j : Fin 6400) (q : Fin 16) :
    outsAt1 V c t (ix2 j q)
      = Orow (V c main_v9) (V c main_v8) (V c main_v10)
          (⟨t.val * 6400 + j.val, by have := point_lt t; have := j.isLt; omega⟩ : Fin 800000) q := by
  unfold outsAt1
  refine (out1_apply c (grid1.coords t) (ms1_0 t) (hs1_0 t) (ms1_1 t) (hs1_1 t) (ms1_2 t) (hs1_2 t) (ms1_3 t) (hs1_3 t)
    (iblk1 V c 0 t) (iblk1 V c 1 t) (iblk1 V c 2 t) j q).trans ?_
  unfold Orow
  rw [words_blk V c t j, table_blk V c t, b2_blk V c t]

/-- What point t leaves in its output block, as one function of the block's index. -/
theorem point_fun (c : Dev nD) (t : Fin cfg1.N) :
    outsAt1 V c t = fun y : S6400x16.Idx =>
      Orow (V c main_v9) (V c main_v8) (V c main_v10)
        (⟨t.val * 6400 + (y 0).val, by have := point_lt t; have : (y 0).val < 6400 := (y 0).isLt; omega⟩ : Fin 800000)
        (⟨(y 1).val, (y 1).isLt⟩ : Fin 16) := by
  funext y
  obtain ⟨j, q, rfl⟩ : ∃ (j : Fin 6400) (q : Fin 16), y = ix2 j q := ⟨y 0, y 1, eq_ix2 y⟩
  exact point_out V c t j q

/-- A point whose output block holds rows [6400 t, 6400 (t + 1)) of a row function g writes back block t of g. -/
theorem flushed_of_point (g : Fin 800000 → Fin 16 → EReal) (c : Dev nD) (t : Fin cfg1.N)
    (hpt : outsAt1 V c t = fun y : S6400x16.Idx =>
      g (⟨t.val * 6400 + (y 0).val, by have := point_lt t; have : (y 0).val < 6400 := (y 0).isLt; omega⟩ : Fin 800000)
        (⟨(y 1).val, (y 1).isLt⟩ : Fin 16)) :
    (dat1 V c).flushed 3 t = ((cfg1.win 3).blk t).view.read (Elt Ideal)
      (fun i : S800000x16.Idx => g ⟨(i 0).val, (i 0).isLt⟩ ⟨(i 1).val, (i 1).isLt⟩) := by
  show (cfg1.win 3).cut (grid1.coords t) ((dat1 V c).after 3 t) = _
  rw [after1_3, hpt]
  obtain ⟨-, -, -, -, -, -, e6, e7⟩ := idx_facts t
  funext y
  rw [View.read_apply, cast_eq]
  refine congrArg₂ g (Fin.ext ?_) (Fin.ext ?_)
  · show t.val * 6400 + (y 0).val = win1_3.index t (0 : Fin 2) * 6400 + 1 * (y 0).val
    rw [e6]; omega
  · show (y 1).val = win1_3.index t (1 : Fin 2) * 16 + 1 * (y 1).val
    rw [e7]; omega

/-- WHAT POINT t WRITES BACK is block t of the output function. -/
theorem flushed_eq (c : Dev nD) (t : Fin cfg1.N) :
    (dat1 V c).flushed 3 t = ((cfg1.win 3).blk t).view.read (Elt Ideal) (Oarr V c) :=
  flushed_of_point V (Orow (V c main_v9) (V c main_v8) (V c main_v10)) c t (point_fun V c t)

/-- An index of the output is in point t's block exactly when each coordinate is in the block's range. -/
theorem mem_blk (t : Fin cfg1.N) (i : S800000x16.Idx) :
    i ∈ ((cfg1.win 3).blk t).view.set ↔ ∀ a : Fin 2, win1_3.index t a * S6400x16.size a ≤ (i a).val
      ∧ (i a).val < win1_3.index t a * S6400x16.size a + S6400x16.size a := by
  show i ∈ ((View.whole main_v11).slice (win1_3.rect t)).set ↔ _
  rw [View.set_slice_whole, Rect.mem_set_unit]
  exact Iff.rfl

/-- The 125 blocks cover the output: row r lies in the block of point r / 6400. -/
theorem cover (i : S800000x16.Idx) :
    ∃ t : Fin cfg1.N, (cfg1.win 3).flush t = true ∧ i ∈ ((cfg1.win 3).blk t).view.set := by
  have hi0 : (i 0).val < 800000 := (i 0).isLt
  have hi1 : (i 1).val < 16 := (i 1).isLt
  let t : Fin cfg1.N := ⟨(i 0).val / 6400, by rw [show cfg1.N = 125 from N_1]; omega⟩
  obtain ⟨-, -, -, -, -, -, e6, e7⟩ := idx_facts t
  refine ⟨t, flush1_3 t, ?_⟩
  rw [mem_blk]
  intro a
  match a with
  | ⟨0, _⟩ =>
    show win1_3.index t (0 : Fin 2) * 6400 ≤ (i 0).val ∧ (i 0).val < win1_3.index t (0 : Fin 2) * 6400 + 6400
    rw [e6]; show (i 0).val / 6400 * 6400 ≤ (i 0).val ∧ (i 0).val < (i 0).val / 6400 * 6400 + 6400; omega
  | ⟨1, _⟩ =>
    show win1_3.index t (1 : Fin 2) * 16 ≤ (i 1).val ∧ (i 1).val < win1_3.index t (1 : Fin 2) * 16 + 16
    rw [e7]; omega

/-- THE OUTPUT ARRAY after the region, at entry (e, q). -/
theorem array_apply (c : Dev nD) (e : Fin 800000) (q : Fin 16) :
    ((dat1 V c).arrAt 3 cfg1.N : S800000x16.Idx → EReal) (ix2 e q)
      = Orow (V c main_v9) (V c main_v8) (V c main_v10) e q := by
  rw [(dat1 V c).arrAt_eq_of_cover 3 (Oarr V c) (fun t _ => flushed_eq V c t) cover]
  rfl

end Cert.KernelIdeal.Region1

end
-- ==== Proof.HostSide.lean ====
/-
  What the host operations leave in the buffers the two regions read.

  Entering the first region: the edge list's target row (row 1, flattened) cut to its first 50000 entries, padded
  behind to 50176 and viewed as a column; the node features padded behind with 176 rows; W1 as launched; b1 viewed
  as a one-row matrix. A padded array read inside its operand's extent is the operand there, so for a row below
  50000 the column holds that edge's target word and the table holds that node's feature row.

  Entering the second region: the whole target row viewed as a column; the product of the first region's output
  array with W2, entry (n, q) the sum over the 64 hidden coordinates of the operands' products; b2 viewed as a
  one-row matrix.
-/
import proofs.«418506_j22119081574524_1_alg».proof.Proof.Gen.KernelIdeal.Frame
import Idealize.ShloMosaic.Lib.StableHlo.Run
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.ShloMosaic.ValueIdx Idealize.SL.Sem

/-! ## Layout operations read at an index -/

section Layout
variable {α : Type}

/-- An `[a]` array viewed as `[a, 1]` reads, at `(i, 0)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) : shapeCast ⟨2, ![a, 1]⟩ x h (ix2 i (0 : Fin 1)) = x (ix1 i) :=
  shapeCast_apply x h _ _ (by
    rw [Shape.rowMajor_val_two, Shape.rowMajor_val_one]
    show i.val = i.val * 1 + 0
    rw [Nat.mul_one, Nat.add_zero])

/-- Row 1 of a two-row array, sliced out and flattened, reads at `e` the array at `(1, e)`. -/
theorem row1_apply {N : ℕ} (X : (⟨2, ![2, N]⟩ : Shape).Idx → α)
    (hs : (⟨2, ![2, N]⟩ : Shape).Slices ![1, 0] ⟨2, ![1, N]⟩) (hc : (⟨2, ![1, N]⟩ : Shape).ShapeCasts ⟨1, ![N]⟩) (e : Fin N) :
    shapeCast ⟨1, ![N]⟩ (extractStridedSlice ⟨2, ![1, N]⟩ ![1, 0] X hs) hc (ix1 e) = X (ix2 (1 : Fin 2) e) := by
  refine (shapeCast_1a_a_apply _ hc e).trans ?_
  exact extractStridedSlice_apply _ X hs _ (ix2 (1 : Fin 2) e) (fun a => match a with
    | ⟨0, _⟩ => rfl
    | ⟨1, _⟩ => (Nat.zero_add _).symm)

/-- The leading `K` entries of a vector, sliced out, read at `i` the vector at `i`. -/
theorem head_apply {N K : ℕ} (x : (⟨1, ![N]⟩ : Shape).Idx → α) (hs : (⟨1, ![N]⟩ : Shape).Slices ![0] ⟨1, ![K]⟩)
    (i : Fin K) (hi : i.val < N) : extractStridedSlice ⟨1, ![K]⟩ ![0] x hs (ix1 i) = x (ix1 ⟨i.val, hi⟩) :=
  extractStridedSlice_apply _ x hs _ (ix1 ⟨i.val, hi⟩) (fun a => match a with
    | ⟨0, _⟩ => (Nat.zero_add _).symm)

end Layout

variable (m : (ℓ : Loc nD τ sig) → Buf (Elt Ideal) ℓ) (ρ : Dev nD → PrngReg)

/-! ## Entering the first region -/

/-- No host operation writes W1. -/
theorem w1_0 (c : Dev nD) : V5 m ρ c main_arg1 = m ((c : Thread nD τ).loc main_arg1) := by
  show StableHlo.after hostOps0_4 _ (Proc.devRef .tc main_arg1) = _
  after_results

/-- The one-row bias is b1. -/
theorem b1_0 (c : Dev nD) (d : Fin 64) :
    (V5 m ρ c main_v6 : S1x64.Idx → EReal) (ix2 (0 : Fin 1) d) = (m ((c : Thread nD τ).loc main_arg2) : S64.Idx → EReal) (ix1 d) := by
  show (StableHlo.after (hostOps0_4 (F := Ideal)) _ (Proc.devRef .tc main_v6) : S1x64.Idx → EReal) _ = _
  after_results
  exact shapeCast_a_1a_apply _ shapeCasts_S64_S1x64 0 d

/-- Below row 50000 the padded feature table is the feature table: no low padding, no interior padding. -/
theorem tbl0 (c : Dev nD) (n : Fin 50176) (hn : n.val < 50000) (k : Fin 64) :
    (V5 m ρ c main_v3 : S50176x64.Idx → EReal) (ix2 n k) = (m ((c : Thread nD τ).loc main_arg0) : S50000x64.Idx → EReal) (ix2 (⟨n.val, hn⟩ : Fin 50000) k) := by
  show (StableHlo.after (hostOps0_4 (F := Ideal)) _ (Proc.devRef .tc main_v3) : S50176x64.Idx → EReal) _ = _
  after_results
  exact pad_apply_of_inside _ _ _ _ _ pads_S50000x64_S50176x64_01760_000 h_S_ (ix2 n k) (ix2 (⟨n.val, hn⟩ : Fin 50000) k) (fun a => match a with
    | ⟨0, _⟩ => by show n.val = 0 + n.val * (0 + 1); omega
    | ⟨1, _⟩ => by show k.val = 0 + k.val * (0 + 1); omega)

/-- Below row 50000 the padded index column holds the target word of the edge with that number: column of the
    padded vector, the pad inside its operand, the leading slice, then row 1 of the edge list. -/
theorem idx0 (c : Dev nD) (n : Fin 50176) (hn : n.val < 50000) :
    (V5 m ρ c main_v5 : S50176x1.Idx → BitVec 32) (ix2 n (0 : Fin 1)) = (m ((c : Thread nD τ).loc main_arg5) : S2x800000.Idx → BitVec 32) (ix2 (1 : Fin 2) (⟨n.val, by omega⟩ : Fin 800000)) := by
  show (StableHlo.after (hostOps0_4 (F := Ideal)) _ (Proc.devRef .tc main_v5) : S50176x1.Idx → BitVec 32) _ = _
  after_results
  refine (shapeCast_a_a1_apply _ shapeCasts_S50176_S50176x1 n).trans ?_
  refine (pad_apply_of_inside _ _ _ _ _ pads_S50000_S50176_01760 h_S_ (ix1 n) (ix1 (⟨n.val, hn⟩ : Fin 50000)) (fun a => match a with
    | ⟨0, _⟩ => by show n.val = 0 + n.val * (0 + 1); omega)).trans ?_
  show extractStridedSlice S50000 ![0] (shapeCast S800000 (extractStridedSlice S1x800000 ![1, 0]
      (m ((c : Thread nD τ).loc main_arg5) : S2x800000.Idx → BitVec 32) slices_S2x800000_S1x800000_1_0) shapeCasts_S1x800000_S800000)
    slices_S800000_S50000_0 (ix1 (⟨n.val, hn⟩ : Fin 50000)) = _
  refine (head_apply _ slices_S800000_S50000_0 (⟨n.val, hn⟩ : Fin 50000) (by show n.val < 800000; omega)).trans ?_
  exact row1_apply _ slices_S2x800000_S1x800000_1_0 shapeCasts_S1x800000_S800000 _

/-! ## Entering the second region

The first region writes only its output array; every other buffer is what the first stretch of host operations left. -/

/-- The flattened target row, as the first host operations left it: entry `e` is the edge list at `(1, e)`. -/
theorem v1_5 (c : Dev nD) (e : Fin 800000) :
    (W5 m ρ c (Proc.devRef .tc main_v1) : S800000.Idx → BitVec 32) (ix1 e) = (m ((c : Thread nD τ).loc main_arg5) : S2x800000.Idx → BitVec 32) (ix2 (1 : Fin 2) e) := by
  show (StableHlo.after (hostOps0_4 (F := Ideal)) _ (Proc.devRef .tc main_v1) : S800000.Idx → BitVec 32) _ = _
  after_results
  exact row1_apply _ slices_S2x800000_S1x800000_1_0 shapeCasts_S1x800000_S800000 e

/-- The index column of the second region holds every edge's target word. -/
theorem idx1 (c : Dev nD) (e : Fin 800000) :
    (V7 m ρ c main_v9 : S800000x1.Idx → BitVec 32) (ix2 e (0 : Fin 1)) = (m ((c : Thread nD τ).loc main_arg5) : S2x800000.Idx → BitVec 32) (ix2 (1 : Fin 2) e) := by
  show (StableHlo.after (hostOps1 (F := Ideal)) _ (Proc.devRef .tc main_v9) : S800000x1.Idx → BitVec 32) _ = _
  after_results
  rw [W6_of_ne m ρ c main_v1 (by decide)]
  exact (shapeCast_a_a1_apply _ shapeCasts_S800000_S800000x1 e).trans (v1_5 m ρ c e)

/-- No host operation before the first region writes b2. -/
theorem arg4_5 (c : Dev nD) : W5 m ρ c (Proc.devRef .tc main_arg4) = m ((c : Thread nD τ).loc main_arg4) := by
  show StableHlo.after hostOps0_4 _ (Proc.devRef .tc main_arg4) = _
  after_results

/-- No host operation before the first region writes W2. -/
theorem arg3_5 (c : Dev nD) : W5 m ρ c (Proc.devRef .tc main_arg3) = m ((c : Thread nD τ).loc main_arg3) := by
  show StableHlo.after hostOps0_4 _ (Proc.devRef .tc main_arg3) = _
  after_results

/-- The one-row bias of the second region is b2. -/
theorem b2_1 (c : Dev nD) (q : Fin 16) :
    (V7 m ρ c main_v10 : S1x16.Idx → EReal) (ix2 (0 : Fin 1) q) = (m ((c : Thread nD τ).loc main_arg4) : S16.Idx → EReal) (ix1 q) := by
  show (StableHlo.after (hostOps1 (F := Ideal)) _ (Proc.devRef .tc main_v10) : S1x16.Idx → EReal) _ = _
  after_results
  rw [W6_of_ne m ρ c main_arg4 (by decide), arg4_5 m ρ c]
  exact shapeCast_a_1a_apply _ shapeCasts_S16_S1x16 0 q

/-! ## The second layer's product, entry by entry

The host's product of a [50176, 64] array with a [64, 16] array contracts the one shared axis: at the ideal reals its
entry (n, q) is the sum over that axis of the operands' products. The operand indices at an output index and a
contraction index are read coordinate by coordinate, and the contraction index is moved to `Fin 64` through its one
coordinate. -/

section Dot

private abbrev D := dot_S50176x64_S64x16_S50176x16_1_0_0_1_n_n

theorem dot_lhs_0 (i : S50176x16.Idx) (q : D.contr.Idx) : (D.lhsIdx i q 0).val = (i 0).val := by
  unfold DotDims.lhsIdx
  rw [dif_neg (show ¬(0 : Fin S50176x64.rank) ∈ D.lhsBatch by decide),
    dif_pos (show (0 : Fin S50176x64.rank) ∈ D.lhsNonContracting by decide)]
  rfl

theorem dot_lhs_1 (i : S50176x16.Idx) (q : D.contr.Idx) : (D.lhsIdx i q 1).val = (q ⟨0, by decide⟩).val :=
  D.lhsIdx_val_of_single rfl i q

theorem dot_rhs_0 (i : S50176x16.Idx) (q : D.contr.Idx) : (D.rhsIdx i q 0).val = (q ⟨0, by decide⟩).val :=
  D.rhsIdx_val_of_single rfl i q

theorem dot_rhs_1 (i : S50176x16.Idx) (q : D.contr.Idx) : (D.rhsIdx i q 1).val = (i 1).val := by
  unfold DotDims.rhsIdx
  rw [dif_neg (show ¬(1 : Fin S64x16.rank) ∈ D.rhsBatch by decide),
    dif_pos (show (1 : Fin S64x16.rank) ∈ D.rhsNonContracting by decide)]
  rfl

/-- Entry (n, q) of the product is the sum over `d` of `A (n, d) * B (d, q)`. -/
theorem dot_apply (A : FVec Ideal S50176x64 .f32) (B : FVec Ideal S64x16 .f32) (n : Fin 50176) (q : Fin 16) :
    Host.dotGeneral (F := Ideal) D none A B (ix2 n q) = ∑ d : Fin 64, A (ix2 n d) * B (ix2 d q) := by
  simp only [Host.dotGeneral]
  rw [Ideal.dotGeneral_apply, ← Equiv.sum_comp (contrEquiv1 D 64 rfl rfl).symm]
  refine Finset.sum_congr rfl fun k _ => ?_
  have hk := contrEquiv1_symm_val D 64 rfl rfl k
  have el : D.lhsIdx (ix2 n q) ((contrEquiv1 D 64 rfl rfl).symm k) = ix2 n k :=
    Shape.idx_ext₂ (dot_lhs_0 _ _) ((dot_lhs_1 _ _).trans hk)
  have er : D.rhsIdx (ix2 n q) ((contrEquiv1 D 64 rfl rfl).symm k) = ix2 k q :=
    Shape.idx_ext₂ ((dot_rhs_0 _ _).trans hk) (dot_rhs_1 _ _)
  rw [el, er]

end Dot

/-- The table of the second region: the first region's output array times W2. The sum and the product are the
    extended reals' (the two arrays' entry types compute to them). -/
theorem tbl1 (c : Dev nD) (n : Fin 50176) (q : Fin 16) :
    (V7 m ρ c main_v8 : S50176x16.Idx → EReal) (ix2 n q)
      = Finset.sum (M := EReal) Finset.univ fun d : Fin 64 =>
          HMul.hMul (α := EReal) (β := EReal) (γ := EReal)
            (((dat0 (V5 m ρ) c).arrAt 4 cfg0.N : S50176x64.Idx → EReal) (ix2 n d))
            ((m ((c : Thread nD τ).loc main_arg3) : S64x16.Idx → EReal) (ix2 d q)) := by
  show (StableHlo.after (hostOps1 (F := Ideal)) _ (Proc.devRef .tc main_v8) : S50176x16.Idx → EReal) _ = _
  after_results
  have h7 : W6 m ρ c (Proc.devRef .tc main_v7) = (dat0 (V5 m ρ) c).arrAt 4 cfg0.N := W6_arr m ρ c 4
  rw [h7, W6_of_ne m ρ c main_arg3 (by decide), arg3_5 m ρ c]
  exact dot_apply _ _ n q

end Cert.KernelIdeal.HostSide

end
-- ==== Proof.Spec.lean ====
/-
  A two-layer network over a graph's edges, read through the edges' target nodes.

  The edge list's second row gives every edge e a target word. A word names a node: read signed and held inside the
  node range [0, 50000). A node n has a hidden row  relu (x[n] · W1 + b1)  (64 entries) and a score row
  hidden[n] · W2 + b2  (16 entries). Edge e's output is the score row of the node named by the target word of the edge
  WHOSE NUMBER is e's own target node: the second layer indexes the per-edge hidden rows again by the target, and row j
  of those is the hidden row of edge j's target.
-/
import Idealize.ShloMosaic.PureOps.Ideal
import Idealize.ShloMosaic.Lib.ValueIdx

noncomputable section

open scoped BigOperators

namespace Cert.EdgeNet

open Idealize.ShloMosaic Idealize.ShloMosaic.ValueIdx

/-- The node a target word names: the word read signed, held inside [0, 49999]. -/
def node (w : BitVec 32) : Fin 50000 := ⟨min w.toInt.toNat 49999, by omega⟩

/-- A word in the node range names the node of its own value. -/
theorem node_val {w : BitVec 32} (h0 : 0 ≤ w.toInt) (h1 : w.toInt < 50000) : (node w).val = w.toInt.toNat := by
  show min w.toInt.toNat 49999 = _
  omega

/-- Edge e's target word: row 1 of the edge list. -/
def target (ei : (⟨2, ![2, 800000]⟩ : Shape).Idx → BitVec 32) (e : Fin 800000) : BitVec 32 := ei (ix2 (1 : Fin 2) e)

/-- A node's hidden row: relu of its feature row times W1 plus b1. -/
def hidden (x : (⟨2, ![50000, 64]⟩ : Shape).Idx → EReal) (W1 : (⟨2, ![64, 64]⟩ : Shape).Idx → EReal)
    (b1 : (⟨1, ![64]⟩ : Shape).Idx → EReal) (n : Fin 50000) (d : Fin 64) : EReal :=
  max (∑ k : Fin 64, x (ix2 n k) * W1 (ix2 k d) + b1 (ix1 d)) 0

/-- A node's score row: its hidden row times W2 plus b2. -/
def score (x : (⟨2, ![50000, 64]⟩ : Shape).Idx → EReal) (W1 : (⟨2, ![64, 64]⟩ : Shape).Idx → EReal)
    (b1 : (⟨1, ![64]⟩ : Shape).Idx → EReal) (W2 : (⟨2, ![64, 16]⟩ : Shape).Idx → EReal)
    (b2 : (⟨1, ![16]⟩ : Shape).Idx → EReal) (n : Fin 50000) (q : Fin 16) : EReal :=
  ∑ d : Fin 64, hidden x W1 b1 n d * W2 (ix2 d q) + b2 (ix1 q)

/-- The edge whose number is a node's (there are more edges than nodes). -/
def edgeOf (n : Fin 50000) : Fin 800000 := ⟨n.val, by have := n.isLt; omega⟩

/-- The node whose score row edge e's output is: the target of the edge numbered by e's target. -/
def via (ei : (⟨2, ![2, 800000]⟩ : Shape).Idx → BitVec 32) (e : Fin 800000) : Fin 50000 :=
  node (target ei (edgeOf (node (target ei e))))

/-- The result, entry by entry. -/
def G (x : (⟨2, ![50000, 64]⟩ : Shape).Idx → EReal) (W1 : (⟨2, ![64, 64]⟩ : Shape).Idx → EReal)
    (b1 : (⟨1, ![64]⟩ : Shape).Idx → EReal) (W2 : (⟨2, ![64, 16]⟩ : Shape).Idx → EReal)
    (b2 : (⟨1, ![16]⟩ : Shape).Idx → EReal) (ei : (⟨2, ![2, 800000]⟩ : Shape).Idx → BitVec 32) :
    (⟨2, ![800000, 16]⟩ : Shape).Idx → EReal :=
  fun i => score x W1 b1 W2 b2 (via ei ⟨(i 0).val, (i 0).isLt⟩) ⟨(i 1).val, (i 1).isLt⟩

theorem G_ix2 (x : (⟨2, ![50000, 64]⟩ : Shape).Idx → EReal) (W1 : (⟨2, ![64, 64]⟩ : Shape).Idx → EReal)
    (b1 : (⟨1, ![64]⟩ : Shape).Idx → EReal) (W2 : (⟨2, ![64, 16]⟩ : Shape).Idx → EReal)
    (b2 : (⟨1, ![16]⟩ : Shape).Idx → EReal) (ei : (⟨2, ![2, 800000]⟩ : Shape).Idx → BitVec 32)
    (e : Fin 800000) (q : Fin 16) : G x W1 b1 W2 b2 ei (ix2 e q) = score x W1 b1 W2 b2 (via ei e) q := rfl

end Cert.EdgeNet

end
-- ==== Proof.KernelValue.lean ====
/-
  The kernel program's result is the specification, when every target word names a node.

  The second region's output row e is row (word e) of the table  hidden-rows · W2  plus b2. Under the range hypothesis
  word e names a node n below 50000, inside the table's 50176 rows. Row n of the first region's output is
  relu (gathered row · W1 + b1)  with the gathered row the padded features' row named by word n of the padded word
  column; n is below 50000, so that word is edge n's own target word, which again names a node n' below 50000, inside
  the unpadded features. So the output's row e is the score row of n' — the node the specification calls  via e.
-/
import proofs.«418506_j22119081574524_1_alg».proof.Proof.Region0
import proofs.«418506_j22119081574524_1_alg».proof.Proof.Region1
import proofs.«418506_j22119081574524_1_alg».proof.Proof.HostSide
import proofs.«418506_j22119081574524_1_alg».proof.Proof.Spec

set_option maxRecDepth 16384

noncomputable section

open scoped BigOperators

namespace Cert.KernelIdeal.Whole

open Cert.KernelIdeal Cert.KernelIdeal.Gen Idealize.ShloMosaic Idealize.ShloMosaic.ValueIdx
open Idealize.ShloMosaic.TcCoe Idealize.SL.Sem Cert.EdgeNet

/-- A word in the node range, read unsigned, is its node's number. -/
theorem toNat_of_range (w : BitVec 32) (h0 : 0 ≤ w.toInt) (h1 : w.toInt < 50000) : w.toNat = (node w).val := by
  rw [node_val h0 h1]
  have hc := BitVec.toInt_eq_toNat_cond w
  have hlt := w.isLt
  split at hc <;> omega

/-- In a 64-column table of 50176 rows, the row gathered for a word in the node range is the row of its node. -/
theorem pick0_of_range (tbl : Vec Ideal S50176x64 .f32) (w : BitVec 32) (h0 : 0 ≤ w.toInt) (h1 : w.toInt < 50000)
    (k : Fin 64) :
    Gather0.pick tbl w k = tbl (ix2 (⟨(node w).val, by have := (node w).isLt; omega⟩ : Fin 50176) k) := by
  have e := toNat_of_range w h0 h1
  have hn := (node w).isLt
  unfold Gather0.pick Gather0.colN
  rw [if_pos (by omega), dif_pos (by omega)]
  exact congrArg (fun n : Fin 50176 => tbl (ix2 n k)) (Fin.ext e)

/-- The same in the 16-column table of score rows. -/
theorem pick1_of_range (tbl : Vec Ideal S50176x16 .f32) (w : BitVec 32) (h0 : 0 ≤ w.toInt) (h1 : w.toInt < 50000)
    (q : Fin 16) :
    Gather1.pick tbl w q = tbl (ix2 (⟨(node w).val, by have := (node w).isLt; omega⟩ : Fin 50176) q) := by
  have e := toNat_of_range w h0 h1
  have hn := (node w).isLt
  unfold Gather1.pick Gather1.colN
  rw [if_pos (by omega), dif_pos (by omega)]
  exact congrArg (fun n : Fin 50176 => tbl (ix2 n q)) (Fin.ext e)

variable (m : (ℓ : Loc nD τ sig) → Buf (Elt Ideal) ℓ) (ρ : Dev nD → PrngReg)

/-- Row n of the first region's output, for a node number n, is the hidden row of the node edge n's target names. -/
theorem hidden_row (c : Dev nD)
    (hpre : ∀ e : Fin 800000,
      0 ≤ ((m ((c : Thread nD τ).loc main_arg5) : S2x800000.Idx → BitVec 32) (ix2 (1 : Fin 2) e)).toInt
      ∧ ((m ((c : Thread nD τ).loc main_arg5) : S2x800000.Idx → BitVec 32) (ix2 (1 : Fin 2) e)).toInt < 50000)
    (n : Fin 50000) (d : Fin 64) :
    ((dat0 (V5 m ρ) c).arrAt 4 cfg0.N : S50176x64.Idx → EReal)
        (ix2 (⟨n.val, by have := n.isLt; omega⟩ : Fin 50176) d)
      = EdgeNet.hidden (m ((c : Thread nD τ).loc main_arg0)) (m ((c : Thread nD τ).loc main_arg1))
          (m ((c : Thread nD τ).loc main_arg2))
          (node (target (m ((c : Thread nD τ).loc main_arg5)) (edgeOf n))) d := by
  obtain ⟨h0, h1⟩ := hpre (edgeOf n)
  rw [Region0.array_apply (V5 m ρ) c _ d]
  unfold Region0.Hrow EdgeNet.hidden
  rw [HostSide.idx0 m ρ c (⟨n.val, by have := n.isLt; omega⟩ : Fin 50176) n.isLt, HostSide.w1_0 m ρ c,
    HostSide.b1_0 m ρ c d]
  congr 1
  congr 1
  refine Finset.sum_congr rfl fun k _ => ?_
  congr 1
  show Gather0.pick (V5 m ρ c main_v3) (target (m ((c : Thread nD τ).loc main_arg5)) (edgeOf n)) k = _
  rw [pick0_of_range _ (target (m ((c : Thread nD τ).loc main_arg5)) (edgeOf n)) h0 h1 k]
  exact HostSide.tbl0 m ρ c _ (node (target (m ((c : Thread nD τ).loc main_arg5)) (edgeOf n))).isLt k

/-- THE RESULT BUFFER after the run is the specification of the launch arrays. -/
theorem result_eq (c : Dev nD)
    (hpre : ∀ e : Fin 800000,
      0 ≤ ((m ((c : Thread nD τ).loc main_arg5) : S2x800000.Idx → BitVec 32) (ix2 (1 : Fin 2) e)).toInt
      ∧ ((m ((c : Thread nD τ).loc main_arg5) : S2x800000.Idx → BitVec 32) (ix2 (1 : Fin 2) e)).toInt < 50000) :
    (W8 m ρ c (Proc.devRef .tc main_v11) : S800000x16.Idx → EReal)
      = G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨e, q, rfl⟩ : ∃ (e : Fin 800000) (q : Fin 16), i = ix2 e q := ⟨i 0, i 1, eq_ix2 i⟩
  obtain ⟨h0, h1⟩ := hpre e
  rw [G_ix2]
  have hW : (W8 m ρ c (Proc.devRef .tc main_v11) : S800000x16.Idx → EReal)
      = ((dat1 (V7 m ρ) c).arrAt 3 cfg1.N : S800000x16.Idx → EReal) := W8_arr m ρ c 3
  rw [hW, Region1.array_apply (V7 m ρ) c e q]
  unfold Region1.Orow score
  rw [HostSide.idx1 m ρ c e, HostSide.b2_1 m ρ c q]
  congr 1
  show Gather1.pick (V7 m ρ c main_v8) (target (m ((c : Thread nD τ).loc main_arg5)) e) q = _
  rw [pick1_of_range _ (target (m ((c : Thread nD τ).loc main_arg5)) e) h0 h1 q, HostSide.tbl1 m ρ c _ q]
  refine Finset.sum_congr rfl fun d _ => ?_
  congr 1
  exact hidden_row m ρ c hpre (node (target (m ((c : Thread nD τ).loc main_arg5)) e)) d

end Cert.KernelIdeal.Whole

end
-- ==== Proof.RefStages.lean ====
/-
  The reference's program read back: its run and the stages of its result.
-/
import proofs.«418506_j22119081574524_1_alg».proof.Proof.Gen.ReferenceIdeal.Run
import proofs.«418506_j22119081574524_1_alg».proof.Proof.Gen.ReferenceIdeal.Read
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.RefValue.lean ====
/-
  The reference's result stage is the specification.

  Every edge's target word lies in the node range [0, 50000). The reference first wraps a negative word upward by the
  row count; on words that are not negative the wrap is the identity, so both takes of rows are addressed by the target
  word itself. A take of rows clamps its start index into the operand's row range: against the 50000 feature rows the
  clamp is the node the word names, and against the 800000 per-edge hidden rows it is the edge whose number is that
  node. Hence the first take hands edge e the feature row of its target node, the first layer turns it into that node's
  hidden row, the second take hands edge e the hidden row of the edge numbered by e's target — the hidden row of THAT
  edge's target node — and the second layer turns it into that node's score row.
-/
import proofs.«418506_j22119081574524_1_alg».proof.Proof.RefStages
import proofs.«418506_j22119081574524_1_alg».proof.Proof.Spec
import proofs.«418506_j22119081574524_1_alg».proof.Proof.LibTakeRows

noncomputable section

open scoped BigOperators

namespace Cert.ReferenceIdeal.RefValue

open Cert.ReferenceIdeal Cert.ReferenceIdeal.Gen Cert.ReferenceIdeal.Read Idealize.ShloMosaic Idealize.ShloMosaic.ValueIdx
  Cert.EdgeNet

/-! ## The wrap of a word that is not negative -/

/-- A word that is not negative is not below zero in the signed order. -/
theorem slt_zero_of_nonneg {w : BitVec 32} (h : 0 ≤ w.toInt) : IntOp.cmpi .slt w 0#32 = 0#1 := by
  have hs : w.slt 0#32 = false := by
    rw [BitVec.slt_eq_decide, decide_eq_false_iff_not]
    rw [show (0#32 : BitVec 32).toInt = 0 from by decide]
    omega
  unfold IntOp.cmpi
  show BitVec.ofBool (w.slt 0#32) = 0#1
  rw [hs]
  rfl

/-- A choice on the zero bit takes its second branch. -/
theorem select_zero {α : Type} (a b : α) : Scalar.select 0#1 a b = b := by
  unfold Scalar.select
  exact if_neg (by decide)

/-! ## The target words -/

/-- The sliced and reshaped second row of the edge list, at e, is edge e's target word. -/
theorem word_apply (x5 : (⟨S2x800000, .i32⟩ : BufTy).Contents (Elt Ideal)) (e : Fin 800000) :
    val_main_v1 (F := Ideal) x5 (ix1 e) = target x5 e := by
  rw [val_main_v1_apply, val_main_v0_apply]
  refine congrArg x5 (funext fun a => Fin.ext ?_)
  match a with
  | ⟨0, _⟩ => rfl
  | ⟨1, _⟩ => exact Nat.mod_eq_of_lt e.isLt

/-- The wrap by the node count leaves a target word that is not negative alone. -/
theorem wrap_first (x5 : (⟨S2x800000, .i32⟩ : BufTy).Contents (Elt Ideal)) (e : Fin 800000)
    (h : 0 ≤ (target x5 e).toInt) : val_main_v6 (F := Ideal) x5 (ix1 e) = target x5 e := by
  rw [val_main_v6_apply, val_main_v3_apply, val_main_v2_apply, val_main_c_apply, word_apply, slt_zero_of_nonneg h]
  exact select_zero _ _

/-- The wrap by the edge count leaves a target word that is not negative alone. -/
theorem wrap_second (x5 : (⟨S2x800000, .i32⟩ : BufTy).Contents (Elt Ideal)) (e : Fin 800000)
    (h : 0 ≤ (target x5 e).toInt) : val_main_v18 (F := Ideal) x5 (ix1 e) = target x5 e := by
  rw [val_main_v18_apply, val_main_v15_apply, val_main_v14_apply, val_main_c_1_apply, word_apply, slt_zero_of_nonneg h]
  exact select_zero _ _

/-- The first take's column of start indices holds, at e, edge e's target word. -/
theorem start_first (x5 : (⟨S2x800000, .i32⟩ : BufTy).Contents (Elt Ideal)) (e : Fin 800000)
    (h : 0 ≤ (target x5 e).toInt) : val_main_v7 (F := Ideal) x5 (ix2 e (0 : Fin 1)) = target x5 e := by
  rw [val_main_v7_apply]
  have hi : idx_main_v7 (ix2 e (0 : Fin 1)) = ix1 e := funext fun a => Fin.ext (by match a with | ⟨0, _⟩ => rfl)
  rw [hi]
  exact wrap_first x5 e h

/-- The second take's column of start indices holds, at e, edge e's target word. -/
theorem start_second (x5 : (⟨S2x800000, .i32⟩ : BufTy).Contents (Elt Ideal)) (e : Fin 800000)
    (h : 0 ≤ (target x5 e).toInt) : val_main_v19 (F := Ideal) x5 (ix2 e (0 : Fin 1)) = target x5 e := by
  rw [val_main_v19_apply]
  have hi : idx_main_v19 (ix2 e (0 : Fin 1)) = ix1 e := funext fun a => Fin.ext (by match a with | ⟨0, _⟩ => rfl)
  rw [hi]
  exact wrap_second x5 e h

/-! ## The first layer -/

/-- The first take hands edge e the feature row of the node its target word names. -/
theorem rows_first (x0 : (⟨S50000x64, .f32⟩ : BufTy).Contents (Elt Ideal))
    (x5 : (⟨S2x800000, .i32⟩ : BufTy).Contents (Elt Ideal)) (e : Fin 800000) (k : Fin 64)
    (h : 0 ≤ (target x5 e).toInt) :
    val_main_v8 (F := Ideal) x0 x5 (ix2 e k) = x0 (ix2 (node (target x5 e)) k) := by
  unfold val_main_v8
  refine (Cert.TakeRows.take_rows_apply gather_S50000x64_S800000x1_S800000x64_1_0_n_n_0_1_164 rfl rfl rfl rfl rfl
    (by decide) x0 (val_main_v7 (F := Ideal) x5) e k).trans ?_
  refine congrArg x0 (congrArg (fun n => ix2 n k) (Fin.ext ?_))
  show min (val_main_v7 (F := Ideal) x5 (ix2 e (0 : Fin 1))).toInt.toNat (50000 - 1) = min (target x5 e).toInt.toNat 49999
  rw [start_first x5 e h]

/-- The first layer's result, at edge e, is the hidden row of e's target node. -/
theorem hidden_stage (x0 : (⟨S50000x64, .f32⟩ : BufTy).Contents (Elt Ideal))
    (x1 : (⟨S64x64, .f32⟩ : BufTy).Contents (Elt Ideal)) (x2 : (⟨S64, .f32⟩ : BufTy).Contents (Elt Ideal))
    (x5 : (⟨S2x800000, .i32⟩ : BufTy).Contents (Elt Ideal)) (e : Fin 800000) (d : Fin 64)
    (h : 0 ≤ (target x5 e).toInt) :
    val_main_v13 (F := Ideal) x0 x1 x2 x5 (ix2 e d) = hidden x0 x1 x2 (node (target x5 e)) d := by
  rw [val_main_v13_apply, val_main_v12_apply, val_main_v9_apply, val_main_v11_apply, val_main_v10_apply,
    val_main_call0_v0_apply, val_main_call0_cst_apply]
  have hsum : ∑ k : Fin 64, val_main_v8 (F := Ideal) x0 x5 (lidx_main_v9 (ix2 e d) k) * x1 (ridx_main_v9 (ix2 e d) k)
      = ∑ k : Fin 64, x0 (ix2 (node (target x5 e)) k) * x1 (ix2 k d) := by
    refine Finset.sum_congr rfl fun k _ => ?_
    have hl : lidx_main_v9 (ix2 e d) k = ix2 e k :=
      funext fun a => Fin.ext (by match a with | ⟨0, _⟩ => rfl | ⟨1, _⟩ => rfl)
    have hr : ridx_main_v9 (ix2 e d) k = ix2 k d :=
      funext fun a => Fin.ext (by match a with | ⟨0, _⟩ => rfl | ⟨1, _⟩ => rfl)
    rw [hl, hr, rows_first x0 x5 e k h]
  have hb : idx_main_v10 (idx_main_v11 (ix2 e d)) = ix1 d :=
    funext fun a => Fin.ext (by match a with | ⟨0, _⟩ => rfl)
  rw [hsum, hb, Ideal.maximumf_def, Ideal.addf_def, Ideal.ofBits_def, Ideal.ofBits_zero_f32]
  rfl

/-! ## The second layer -/

/-- The second take hands edge e the hidden row of the edge numbered by e's target node. -/
theorem rows_second (x0 : (⟨S50000x64, .f32⟩ : BufTy).Contents (Elt Ideal))
    (x1 : (⟨S64x64, .f32⟩ : BufTy).Contents (Elt Ideal)) (x2 : (⟨S64, .f32⟩ : BufTy).Contents (Elt Ideal))
    (x5 : (⟨S2x800000, .i32⟩ : BufTy).Contents (Elt Ideal)) (e : Fin 800000) (d : Fin 64)
    (h0 : 0 ≤ (target x5 e).toInt) (h1 : (target x5 e).toInt < 50000) :
    val_main_v20 (F := Ideal) x0 x1 x2 x5 (ix2 e d)
      = val_main_v13 (F := Ideal) x0 x1 x2 x5 (ix2 (edgeOf (node (target x5 e))) d) := by
  unfold val_main_v20
  refine (Cert.TakeRows.take_rows_apply gather_S800000x64_S800000x1_S800000x64_1_0_n_n_0_1_164 rfl rfl rfl rfl rfl
    (by decide) (val_main_v13 (F := Ideal) x0 x1 x2 x5) (val_main_v19 (F := Ideal) x5) e d).trans ?_
  refine congrArg (val_main_v13 (F := Ideal) x0 x1 x2 x5) (congrArg (fun n => ix2 n d) (Fin.ext ?_))
  show min (val_main_v19 (F := Ideal) x5 (ix2 e (0 : Fin 1))).toInt.toNat (800000 - 1) = (node (target x5 e)).val
  rw [start_second x5 e h0, node_val h0 h1]
  omega

/-- THE REFERENCE IS THE SPECIFICATION: with every target word in the node range, the reference's result is, edge by
    edge, the score row of the node named by the target of the edge whose number is the edge's own target node. -/
theorem ref_eq (x0 : (⟨S50000x64, .f32⟩ : BufTy).Contents (Elt Ideal)) (x1 : (⟨S64x64, .f32⟩ : BufTy).Contents (Elt Ideal))
    (x2 : (⟨S64, .f32⟩ : BufTy).Contents (Elt Ideal)) (x3 : (⟨S64x16, .f32⟩ : BufTy).Contents (Elt Ideal))
    (x4 : (⟨S16, .f32⟩ : BufTy).Contents (Elt Ideal)) (x5 : (⟨S2x800000, .i32⟩ : BufTy).Contents (Elt Ideal))
    (hpre : ∀ e : Fin 800000, 0 ≤ (x5 (ValueIdx.ix2 (1 : Fin 2) e)).toInt ∧ (x5 (ValueIdx.ix2 (1 : Fin 2) e)).toInt < 50000) :
    Cert.ReferenceIdeal.Read.val_main_v24 (F := Ideal) x0 x1 x2 x3 x4 x5 = Cert.EdgeNet.G x0 x1 x2 x3 x4 x5 := by
  funext i
  obtain ⟨e, q, rfl⟩ : ∃ (e : Fin 800000) (q : Fin 16), i = ix2 e q := ⟨i 0, i 1, eq_ix2 i⟩
  rw [G_ix2, val_main_v24_apply, val_main_v21_apply, val_main_v23_apply, val_main_v22_apply]
  have hsum : ∑ k : Fin 64, val_main_v20 (F := Ideal) x0 x1 x2 x5 (lidx_main_v21 (ix2 e q) k) * x3 (ridx_main_v21 (ix2 e q) k)
      = ∑ k : Fin 64, hidden x0 x1 x2 (via x5 e) k * x3 (ix2 k q) := by
    refine Finset.sum_congr rfl fun k _ => ?_
    have hl : lidx_main_v21 (ix2 e q) k = ix2 e k :=
      funext fun a => Fin.ext (by match a with | ⟨0, _⟩ => rfl | ⟨1, _⟩ => rfl)
    have hr : ridx_main_v21 (ix2 e q) k = ix2 k q :=
      funext fun a => Fin.ext (by match a with | ⟨0, _⟩ => rfl | ⟨1, _⟩ => rfl)
    rw [hl, hr, rows_second x0 x1 x2 x5 e k (hpre e).1 (hpre e).2,
      hidden_stage x0 x1 x2 x5 (edgeOf (node (target x5 e))) k (hpre _).1]
    rfl
  have hb : idx_main_v22 (idx_main_v23 (ix2 e q)) = ix1 q :=
    funext fun a => Fin.ext (by match a with | ⟨0, _⟩ => rfl)
  rw [hsum, hb, Ideal.addf_def]
  rfl

end Cert.ReferenceIdeal.RefValue

end
-- ==== Proof.PreRange.lean ====
/-
  The range of the target words, read off the precondition.

  The precondition ends in two conjuncts over the edge list's second row, taken as a vector of 800000 words: every word is
  at least 0, and every word is below 50000, both as signed comparisons. Each conjunct is an "and" over all entries of a
  vector of comparison bits; the whole predicate is the "and" of its conjuncts. So from the predicate being 1 each of the
  two conjuncts is 1, hence each of its comparison bits is 1, and a comparison bit that is 1 is the inequality between
  the signed values of the two words it compares. The entry e of the vector is the word at row 1, column e of the list.
-/
import proofs.«418506_j22119081574524_1_alg».proof.Pre_finite_inputs
import Idealize.ShloMosaic.Lib.ReduceAll
import Idealize.ShloMosaic.Lib.StableHlo.Predicate
import Idealize.ShloMosaic.Lib.ValueIdx
import Idealize.ShloMosaic.Lib.Pipeline.Value

namespace Cert.PreRange

open Idealize.ShloMosaic Idealize.ShloMosaic.ValueIdx Cert.Pre_finite_inputs

/-- The scalar shape has one index. -/
local instance : Subsingleton S_.Idx := ⟨fun a b => funext fun d => d.elim0⟩

/-- The second row of the edge list, as a vector: the slice of row 1 (a 1 × 800000 array) flattened. -/
noncomputable def col [Facts] (x5 : IVec S2x800000 32) : IVec S800000 32 :=
  shapeCast S800000 ((extractStridedSlice S1x800000 ![1, 0] · Facts.slices_S2x800000_S1x800000_1_0) x5)
    Facts.shapeCasts_S1x800000_S800000

/-- Entry e of that vector is the word at row 1, column e: flattening keeps the row-major position, which in a one-row
    array is the column, and the slice starts at row 1, column 0. -/
theorem col_apply [Facts] (x5 : IVec S2x800000 32) (e : Fin 800000) : col x5 (ix1 e) = x5 (ix2 (1 : Fin 2) e) := by
  unfold col
  refine (shapeCast_apply _ _ (ix1 e) (ix2 (0 : Fin 1) e) (by
    rw [Shape.rowMajor_val_two, Shape.rowMajor_val_one]; show 0 * 800000 + e.val = e.val; omega)).trans ?_
  exact extractStridedSlice_apply _ _ _ (ix2 (0 : Fin 1) e) (ix2 (1 : Fin 2) e) (by
    intro a
    match a with
    | ⟨0, _⟩ => rfl
    | ⟨1, _⟩ => show e.val = 0 + e.val; omega)

/-- The predicate is the "and" of some earlier conjuncts with the two range conjuncts, each an "and" over all entries of
    the comparison of the second row with a constant vector. -/
theorem fn_split [Facts] (x0 : FVec Ideal S50000x64 .f32) (x1 : FVec Ideal S64x64 .f32) (x2 : FVec Ideal S64 .f32)
    (x3 : FVec Ideal S64x16 .f32) (x4 : FVec Ideal S16 .f32) (x5 : IVec S2x800000 32) :
    ∃ a : BitVec 1, fn (F := Ideal) x0 x1 x2 x3 x4 x5 ix0
      = IntOp.andi
          (IntOp.andi a
            (Host.reduce IntOp.andi
              (cmpi .sge (col x5) (broadcastInDim S800000 ![] Facts.bcast_S_S800000 (constantI S_ 32 0#32)))
              (constantI S_ 1 1#1) Facts.reducesTo_S800000_S_d0 Facts.h_S_ ix0))
          (Host.reduce IntOp.andi
            (cmpi .slt (col x5) (broadcastInDim S800000 ![] Facts.bcast_S_S800000 (constantI S_ 32 50000#32)))
            (constantI S_ 1 1#1) Facts.reducesTo_S800000_S_d0 Facts.h_S_ ix0) :=
  ⟨_, rfl⟩

theorem range_of_pre [Cert.Pre_finite_inputs.Facts] (x0 : FVec Ideal Cert.Pre_finite_inputs.S50000x64 .f32) (x1 : FVec Ideal Cert.Pre_finite_inputs.S64x64 .f32) (x2 : FVec Ideal Cert.Pre_finite_inputs.S64 .f32) (x3 : FVec Ideal Cert.Pre_finite_inputs.S64x16 .f32) (x4 : FVec Ideal Cert.Pre_finite_inputs.S16 .f32) (x5 : IVec Cert.Pre_finite_inputs.S2x800000 32)
    (h : Cert.Pre_finite_inputs.fn (F := Ideal) x0 x1 x2 x3 x4 x5 = fun _ => 1#1) :
    ∀ e : Fin 800000, 0 ≤ (x5 (ValueIdx.ix2 (1 : Fin 2) e)).toInt ∧ (x5 (ValueIdx.ix2 (1 : Fin 2) e)).toInt < 50000 := by
  intro e
  obtain ⟨a, ha⟩ := fn_split x0 x1 x2 x3 x4 x5
  have h0 : fn (F := Ideal) x0 x1 x2 x3 x4 x5 ix0 = 1#1 := congrFun h ix0
  rw [ha] at h0
  -- the outer "and" is 1: both sides are; the inner one likewise
  obtain ⟨hin, hlt⟩ := IntOp.andi_eq_one.1 h0
  obtain ⟨_, hge⟩ := IntOp.andi_eq_one.1 hin
  -- each "and" over all entries gives the comparison bit at entry e
  have bge := Host.reduce_andi_all _ _ _ _ _ hge (ix1 e)
  have blt := Host.reduce_andi_all _ _ _ _ _ hlt (ix1 e)
  -- a comparison bit that is 1 is the inequality of the signed values; the constant vectors read 0 and 50000
  have ige : (0#32 : BitVec 32).toInt ≤ (col x5 (ix1 e)).toInt := IntOp.cmpi_sge.1 bge
  have ilt : (col x5 (ix1 e)).toInt < (50000#32 : BitVec 32).toInt := IntOp.cmpi_slt.1 blt
  rw [col_apply] at ige ilt
  have z0 : (0#32 : BitVec 32).toInt = 0 := by decide
  have z1 : (50000#32 : BitVec 32).toInt = 50000 := by decide
  rw [z0] at ige
  rw [z1] at ilt
  exact ⟨ige, ilt⟩

end Cert.PreRange
-- ==== Proof.lean ====
/-
  The certificate of a two-layer graph network over edges, computed by two one-hot-gather kernels.

  The statement's precondition makes every float input finite and every target word (row 1 of the edge list) a node
  number: 0 ≤ word < 50000, the range of the feature table the reference indexes with it. Under it both programs
  compute, for edge e and class q, the score row  relu (x[n'] · W1 + b1) · W2 + b2  of the node n' named by the target
  word of the edge whose number is e's own target node (Proof/Spec.lean's G):
  • the reference gathers feature rows per edge, applies the first layer, gathers the per-edge hidden rows again by the
    target, applies the second layer (Proof/RefValue.lean over the generated run and stages);
  • the kernel program keeps only the first 50000 hidden rows, multiplies them by W2 on the host, and gathers score rows
    per edge; each of its gathers is a sum of 0/1-matrix products over chunks of the table, which selects one row
    (Proof/LibOneHotSelect.lean, Gather0/1.lean), written back block by block (Region0/1.lean) between host operations
    (HostSide.lean); Proof/KernelValue.lean joins them. No finiteness is used: on the extended reals 0 · t = 0.
  The word-level kernel and the idealized kernel run by their generated frames; the reference's frame is its run with the
  result dropped; the idealization rewrote nothing.
-/
import proofs.«418506_j22119081574524_1_alg».proof.Defs
import proofs.«418506_j22119081574524_1_alg».proof.Proof.Gen.Kernel
import proofs.«418506_j22119081574524_1_alg».proof.Proof.Gen.Kernel.Frame
import proofs.«418506_j22119081574524_1_alg».proof.Proof.Gen.KernelIdeal
import proofs.«418506_j22119081574524_1_alg».proof.Proof.Gen.KernelIdeal.Frame
import proofs.«418506_j22119081574524_1_alg».proof.Proof.Gen.ReferenceIdeal
import proofs.«418506_j22119081574524_1_alg».proof.Proof.Gen.Pre_finite_inputs
import proofs.«418506_j22119081574524_1_alg».proof.Proof.KernelRun
import proofs.«418506_j22119081574524_1_alg».proof.Proof.KernelValue
import proofs.«418506_j22119081574524_1_alg».proof.Proof.RefValue
import proofs.«418506_j22119081574524_1_alg».proof.Proof.PreRange
import Idealize.ShloMosaic.Adequacy
import Idealize.ShloMosaic.Init

noncomputable section

namespace Cert.Proof

open Idealize.ShloMosaic Idealize.ShloMosaic.TcCoe Idealize.SL.Sem

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the specification's array. -/
theorem algebraic : Cert.algebraic_KernelIdeal_ReferenceIdeal := by
  intro m ρ m' ρ' hpre hagree
  have hrange := fun c : Dev Cert.KernelIdeal.nD => Cert.PreRange.range_of_pre _ _ _ _ _ _ (hpre c)
  refine ⟨fun c => Cert.EdgeNet.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.KernelIdeal.Result.run_result (F := Ideal) m ρ)
    exact Cert.KernelIdeal.Whole.result_eq m ρ c (hrange c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq,
      Cert.ReferenceIdeal.RefValue.ref_eq _ _ _ _ _ _
        (by rw [(hagree c).2.2.2.2.2]; exact hrange c),
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri,
    trivial,
    algebraic⟩

end Cert.Proof

end
